-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S8192x2048 : Shape := ⟨2, ![8192, 2048]⟩
abbrev S8192 : Shape := ⟨1, ![8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S1024x2048 .f32) (main_arg1 : FVec F S1024x2048 .f32) (main_arg2 : FVec F S1024x2048 .f32) (main_arg3 : FVec F S8192x2048 .f32) (main_arg4 : FVec F S8192 .f32) (main_arg5 : FVec F S8192x2048 .f32) (main_arg6 : FVec F S8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S1024x2048 : Shape := ⟨2, ![1024, 2048]⟩
abbrev S8192x2048 : Shape := ⟨2, ![8192, 2048]⟩
abbrev S8192 : Shape := ⟨1, ![8192]⟩
abbrev S256x2048 : Shape := ⟨2, ![256, 2048]⟩
abbrev S4x2048x2048 : Shape := ⟨3, ![4, 2048, 2048]⟩
abbrev S4x2048 : Shape := ⟨2, ![4, 2048]⟩
abbrev S4x1024x2048 : Shape := ⟨3, ![4, 1024, 2048]⟩
abbrev S1x256x2048 : Shape := ⟨3, ![1, 256, 2048]⟩
abbrev S4x256 : Shape := ⟨2, ![4, 256]⟩
abbrev S1x1024x256 : Shape := ⟨3, ![1, 1024, 256]⟩
abbrev S1024x256 : Shape := ⟨2, ![1024, 256]⟩
abbrev S1x256 : Shape := ⟨2, ![1, 256]⟩
abbrev S256 : Shape := ⟨1, ![256]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 16
  | .vmem => 28
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S1024x2048, .bf16⟩
  | .hbm, ⟨8, _⟩ => ⟨S1024x2048, .bf16⟩
  | .hbm, ⟨9, _⟩ => ⟨S4x2048x2048, .f32⟩
  | .hbm, ⟨10, _⟩ => ⟨S4x2048x2048, .f32⟩
  | .hbm, ⟨11, _⟩ => ⟨S4x2048, .f32⟩
  | .hbm, ⟨12, _⟩ => ⟨S4x2048, .f32⟩
  | .hbm, ⟨13, _⟩ => ⟨S4x1024x2048, .f32⟩
  | .hbm, ⟨14, _⟩ => ⟨S1024x2048, .f32⟩
  | .hbm, ⟨15, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S4x256, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | .local _ .vmem, ⟨18, _⟩ => ⟨S1x1024x256, .f32⟩
  | .local _ .vmem, ⟨19, _⟩ => ⟨S1x1024x256, .f32⟩
  | .local _ .vmem, ⟨20, _⟩ => ⟨S4x128x2048, .f32⟩
  | .local _ .vmem, ⟨21, _⟩ => ⟨S4x128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_off1 (i : grid1.Coords) : Fin 2 → Nat :=
  let arg0 : BitVec 32 := BitVec.ofNat 32 (i 0).val
  let v31 : Index := Scalar.indexCast arg0
  let c0_18 : Index := 0#32
  ![v31.toNat, 0]
def k1_cond1 (i : grid1.Coords) : BitVec 1 :=
  let arg0 : BitVec 32 := BitVec.ofNat 32 (i 0).val
  let c2_i32 : BitVec 32 := 2#32
  let v43 : BitVec 1 := Scalar.cmpi .ne arg0 c2_i32
  let v44 : BitVec 32 := Scalar.extui v43
  let c0_i32 : BitVec 32 := 0#32
  let v45 : BitVec 1 := Scalar.cmpi .ne v44 c0_i32
  v45

def k1_cond2 (i : grid1.Coords) : BitVec 1 :=
  let arg0 : BitVec 32 := BitVec.ofNat 32 (i 0).val
  let c2_i32_20 : BitVec 32 := 2#32
  let v46 : BitVec 1 := Scalar.cmpi .eq arg0 c2_i32_20
  let v47 : BitVec 32 := Scalar.extui v46
  let c0_i32_21 : BitVec 32 := 0#32
  let v48 : BitVec 1 := Scalar.cmpi .ne v47 c0_i32_21
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S4x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S8192x2048_S4x2048x2048 : S8192x2048.ShapeCasts S4x2048x2048
  shapeCasts_S8192_S4x2048 : S8192.ShapeCasts S4x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S4x128x2048_S1x128x2048_0_0_0 : ∀ a, (![0, 0, 0] : Fin 3 → Nat) a + S1x128x2048.size a ≤ S4x128x2048.size a
  h_S1x128x2048 : 0 < S1x128x2048.numel
  shapeCasts_S1x128x2048_S128x2048 : S1x128x2048.ShapeCasts S128x2048
  inb_S4x128x2048_S1x128x2048_1_0_0 : ∀ a, (![1, 0, 0] : Fin 3 → Nat) a + S1x128x2048.size a ≤ S4x128x2048.size a
  inb_S4x128x2048_S1x128x2048_2_0_0 : ∀ a, (![2, 0, 0] : Fin 3 → Nat) a + S1x128x2048.size a ≤ S4x128x2048.size a
  inb_S4x128x2048_S1x128x2048_3_0_0 : ∀ a, (![3, 0, 0] : Fin 3 → Nat) a + S1x128x2048.size a ≤ S4x128x2048.size a
  inb_S128x2048_S128x2048_0_0 : ∀ a, (![0, 0] : Fin 2 → Nat) a + S128x2048.size a ≤ S128x2048.size a
  h_S128x2048 : 0 < S128x2048.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S1024x2048.size a
  hwx0_2 : ∀ i : grid0.Coords, EltTy.bits .bf16 = 32 ∨ (Rect.block (s := S1024x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S1024x2048.size a
  hwx0_3 : ∀ i : grid0.Coords, EltTy.bits .bf16 = 32 ∨ (Rect.block (s := S1024x2048) S256x2048.size (cc0_transform_3 i) (hinb0_3 i)).WholeWords (EltTy.packing .bf16)
  hrank1 : 0 < grid1.rank
  k1_off1_inb : ∀ i : grid1.Coords, ∀ a, (k1_off1 i) a + S1x256.size a ≤ S4x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .bf16 = 32 ∨ (Rect.block (s := S1024x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S4x2048x2048.size a
  hwx1_2 : ∀ i : grid1.Coords, EltTy.bits .f32 = 32 ∨ (Rect.block (s := S4x2048x2048) S1x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x2048x2048.size a
  hwx1_3 : ∀ i : grid1.Coords, EltTy.bits .f32 = 32 ∨ (Rect.block (s := S4x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x256.size a ≤ S4x2048.size a
  hwx1_4 : ∀ i : grid1.Coords, EltTy.bits .f32 = 32 ∨ (Rect.block (s := S4x2048) S4x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256.size a ≤ S4x2048.size a
  hwx1_5 : ∀ i : grid1.Coords, EltTy.bits .f32 = 32 ∨ (Rect.block (s := S4x2048) S4x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x256.size a ≤ S4x1024x2048.size a
  hwx1_6 : ∀ i : grid1.Coords, EltTy.bits .f32 = 32 ∨ (Rect.block (s := S4x1024x2048) S1x1024x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x128x2048.size a ≤ S4x1024x2048.size a
  hwx2_0 : ∀ i : grid2.Coords, EltTy.bits .f32 = 32 ∨ (Rect.block (s := S4x1024x2048) S4x128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S1024x2048.size a
  hwx2_1 : ∀ i : grid2.Coords, EltTy.bits .f32 = 32 ∨ (Rect.block (s := S1024x2048) S128x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2048.size a ≤ S1024x2048.size a
  hwx2_2 : ∀ i : grid2.Coords, EltTy.bits .f32 = 32 ∨ (Rect.block (s := S1024x2048) S128x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2048.size a ≤ S1024x2048.size a
  hwx2_3 : ∀ i : grid2.Coords, EltTy.bits .f32 = 32 ∨ (Rect.block (s := S1024x2048) S128x2048.size (cc2_transform_3 i) (hinb2_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S4x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S4x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

abbrev win2_0 : Pipeline.Window sig grid2 :=
  Pipeline.Window.ofSpec (Memref.whole main_v5) S4x128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S128x2048.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6_1) S128x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x2048 : Shape := ⟨2, ![1024, 2048]⟩
abbrev S8192x2048 : Shape := ⟨2, ![8192, 2048]⟩
abbrev S8192 : Shape := ⟨1, ![8192]⟩
abbrev S_ : Shape := ⟨0, ![]⟩
abbrev S1024x8192 : Shape := ⟨2, ![1024, 8192]⟩
abbrev S1x8192 : Shape := ⟨2, ![1, 8192]⟩

abbrev nBuf : Space → Nat
  | .hbm => 203
  | .vmem => 0
  | .smem => 0
  | _ => 0

abbrev hbmTy0_0 (i : Nat) : BufTy := match i % 128 with
  | 0 => ⟨S1024x2048, .f32⟩
  | 1 => ⟨S1024x2048, .f32⟩
  | 2 => ⟨S1024x2048, .f32⟩
  | 3 => ⟨S8192x2048, .f32⟩
  | 4 => ⟨S8192, .f32⟩
  | 5 => ⟨S8192x2048, .f32⟩
  | 6 => ⟨S8192, .f32⟩
  | 7 => ⟨S_, .f32⟩
  | 8 => ⟨S1024x2048, .f32⟩
  | 9 => ⟨S1024x2048, .f32⟩
  | 10 => ⟨S_, .f32⟩
  | 11 => ⟨S_, .f32⟩
  | 12 => ⟨S_, .f32⟩
  | 13 => ⟨S1024x2048, .f32⟩
  | 14 => ⟨S1024x2048, .f32⟩
  | 15 => ⟨S_, .f32⟩
  | 16 => ⟨S1024x2048, .f32⟩
  | 17 => ⟨S1024x2048, .f32⟩
  | 18 => ⟨S1024x2048, .f32⟩
  | 19 => ⟨S1024x2048, .f32⟩
  | 20 => ⟨S1024x2048, .f32⟩
  | 21 => ⟨S_, .f32⟩
  | 22 => ⟨S1024x2048, .f32⟩
  | 23 => ⟨S1024x2048, .f32⟩
  | 24 => ⟨S_, .f32⟩
  | 25 => ⟨S8192x2048, .f32⟩
  | 26 => ⟨S8192x2048, .f32⟩
  | 27 => ⟨S_, .f32⟩
  | 28 => ⟨S_, .f32⟩
  | 29 => ⟨S_, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S_, .f32⟩
  | 45 => ⟨S_, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S1024x8192, .f32⟩
  | 59 => ⟨S1x8192, .f32⟩
  | 60 => ⟨S1024x8192, .f32⟩
  | 61 => ⟨S1024x8192, .f32⟩
  | 62 => ⟨S1024x8192, .f32⟩
  | 63 => ⟨S1024x8192, .f32⟩
  | 64 => ⟨S1x8192, .f32⟩
  | 65 => ⟨S1024x8192, .f32⟩
  | 66 => ⟨S1024x8192, .f32⟩
  | 67 => ⟨S1024x2048, .f32⟩
  | 68 => ⟨S1024x2048, .f32⟩
  | 69 => ⟨S1024x2048, .f32⟩
  | 70 => ⟨S1024x2048, .f32⟩
  | 71 => ⟨S1024x2048, .f32⟩
  | 72 => ⟨S1024x2048, .f32⟩
  | 73 => ⟨S_, .f32⟩
  | 74 => ⟨S1024x2048, .f32⟩
  | 75 => ⟨S1024x2048, .f32⟩
  | 76 => ⟨S_, .f32⟩
  | 77 => ⟨S1024x2048, .f32⟩
  | 78 => ⟨S1024x2048, .f32⟩
  | 79 => ⟨S_, .f32⟩
  | 80 => ⟨S1024x2048, .f32⟩
  | 81 => ⟨S1024x2048, .f32⟩
  | 82 => ⟨S_, .f32⟩
  | 83 => ⟨S_, .f32⟩
  | 84 => ⟨S_, .f32⟩
  | 85 => ⟨S1024x2048, .f32⟩
  | 86 => ⟨S1024x2048, .f32⟩
  | 87 => ⟨S_, .f32⟩
  | 88 => ⟨S1024x2048, .f32⟩
  | 89 => ⟨S1024x2048, .f32⟩
  | 90 => ⟨S1024x2048, .f32⟩
  | 91 => ⟨S1024x2048, .f32⟩
  | 92 => ⟨S1024x2048, .f32⟩
  | 93 => ⟨S_, .f32⟩
  | 94 => ⟨S1024x2048, .f32⟩
  | 95 => ⟨S1024x2048, .f32⟩
  | 96 => ⟨S1024x2048, .f32⟩
  | 97 => ⟨S1024x2048, .f32⟩
  | 98 => ⟨S_, .f32⟩
  | 99 => ⟨S1024x2048, .f32⟩
  | 100 => ⟨S1024x2048, .f32⟩
  | 101 => ⟨S_, .f32⟩
  | 102 => ⟨S1024x2048, .f32⟩
  | 103 => ⟨S1024x2048, .f32⟩
  | 104 => ⟨S_, .f32⟩
  | 105 => ⟨S1024x2048, .f32⟩
  | 106 => ⟨S1024x2048, .f32⟩
  | 107 => ⟨S_, .f32⟩
  | 108 => ⟨S_, .f32⟩
  | 109 => ⟨S_, .f32⟩
  | 110 => ⟨S1024x2048, .f32⟩
  | 111 => ⟨S1024x2048, .f32⟩
  | 112 => ⟨S_, .f32⟩
  | 113 => ⟨S1024x2048, .f32⟩
  | 114 => ⟨S1024x2048, .f32⟩
  | 115 => ⟨S1024x2048, .f32⟩
  | 116 => ⟨S1024x2048, .f32⟩
  | 117 => ⟨S1024x2048, .f32⟩
  | 118 => ⟨S_, .f32⟩
  | 119 => ⟨S1024x2048, .f32⟩
  | 120 => ⟨S1024x2048, .f32⟩
  | 121 => ⟨S1024x2048, .f32⟩
  | 122 => ⟨S_, .f32⟩
  | 123 => ⟨S1024x2048, .f32⟩
  | 124 => ⟨S1024x2048, .f32⟩
  | 125 => ⟨S_, .f32⟩
  | 126 => ⟨S_, .f32⟩
  | 127 => ⟨S_, .f32⟩
  | _ => ⟨S1024x2048, .f32⟩

abbrev hbmTy0_1 (i : Nat) : BufTy := match i % 128 with
  | 0 => ⟨S1024x2048, .f32⟩
  | 1 => ⟨S1024x2048, .f32⟩
  | 2 => ⟨S_, .f32⟩
  | 3 => ⟨S1024x2048, .f32⟩
  | 4 => ⟨S1024x2048, .f32⟩
  | 5 => ⟨S1024x2048, .f32⟩
  | 6 => ⟨S1024x2048, .f32⟩
  | 7 => ⟨S1024x2048, .f32⟩
  | 8 => ⟨S_, .f32⟩
  | 9 => ⟨S1024x2048, .f32⟩
  | 10 => ⟨S1024x2048, .f32⟩
  | 11 => ⟨S1024x2048, .f32⟩
  | 12 => ⟨S1024x2048, .f32⟩
  | 13 => ⟨S_, .f32⟩
  | 14 => ⟨S1024x2048, .f32⟩
  | 15 => ⟨S1024x2048, .f32⟩
  | 16 => ⟨S_, .f32⟩
  | 17 => ⟨S1024x2048, .f32⟩
  | 18 => ⟨S1024x2048, .f32⟩
  | 19 => ⟨S_, .f32⟩
  | 20 => ⟨S1024x2048, .f32⟩
  | 21 => ⟨S1024x2048, .f32⟩
  | 22 => ⟨S_, .f32⟩
  | 23 => ⟨S_, .f32⟩
  | 24 => ⟨S_, .f32⟩
  | 25 => ⟨S1024x2048, .f32⟩
  | 26 => ⟨S1024x2048, .f32⟩
  | 27 => ⟨S_, .f32⟩
  | 28 => ⟨S1024x2048, .f32⟩
  | 29 => ⟨S1024x2048, .f32⟩
  | 30 => ⟨S1024x2048, .f32⟩
  | 31 => ⟨S1024x2048, .f32⟩
  | 32 => ⟨S1024x2048, .f32⟩
  | 33 => ⟨S_, .f32⟩
  | 34 => ⟨S1024x2048, .f32⟩
  | 35 => ⟨S1024x2048, .f32⟩
  | 36 => ⟨S1024x2048, .f32⟩
  | 37 => ⟨S1024x2048, .f32⟩
  | 38 => ⟨S1024x2048, .f32⟩
  | 39 => ⟨S1024x2048, .f32⟩
  | 40 => ⟨S_, .f32⟩
  | 41 => ⟨S1024x2048, .f32⟩
  | 42 => ⟨S1024x2048, .f32⟩
  | 43 => ⟨S_, .f32⟩
  | 44 => ⟨S_, .f32⟩
  | 45 => ⟨S_, .f32⟩
  | 46 => ⟨S1024x2048, .f32⟩
  | 47 => ⟨S1024x2048, .f32⟩
  | 48 => ⟨S_, .f32⟩
  | 49 => ⟨S1024x2048, .f32⟩
  | 50 => ⟨S1024x2048, .f32⟩
  | 51 => ⟨S1024x2048, .f32⟩
  | 52 => ⟨S1024x2048, .f32⟩
  | 53 => ⟨S1024x2048, .f32⟩
  | 54 => ⟨S_, .f32⟩
  | 55 => ⟨S1024x2048, .f32⟩
  | 56 => ⟨S1024x2048, .f32⟩
  | 57 => ⟨S1024x2048, .f32⟩
  | 58 => ⟨S_, .f32⟩
  | 59 => ⟨S1024x2048, .f32⟩
  | 60 => ⟨S1024x2048, .f32⟩
  | 61 => ⟨S_, .f32⟩
  | 62 => ⟨S_, .f32⟩
  | 63 => ⟨S_, .f32⟩
  | 64 => ⟨S1024x2048, .f32⟩
  | 65 => ⟨S1024x2048, .f32⟩
  | 66 => ⟨S_, .f32⟩
  | 67 => ⟨S1024x2048, .f32⟩
  | 68 => ⟨S1024x2048, .f32⟩
  | 69 => ⟨S1024x2048, .f32⟩
  | 70 => ⟨S1024x2048, .f32⟩
  | 71 => ⟨S1024x2048, .f32⟩
  | 72 => ⟨S_, .f32⟩
  | 73 => ⟨S1024x2048, .f32⟩
  | 74 => ⟨S1024x2048, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_cst_5 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_6 : Ref sig .tc := ⟨.hbm, 38, rfl⟩
abbrev main_v14 : Ref sig .tc := ⟨.hbm, 39, rfl⟩
abbrev main_v15 : Ref sig .tc := ⟨.hbm, 40, rfl⟩
abbrev main_cst_7 : Ref sig .tc := ⟨.hbm, 41, rfl⟩
abbrev main_v16 : Ref sig .tc := ⟨.hbm, 42, rfl⟩
abbrev main_v17 : Ref sig .tc := ⟨.hbm, 43, rfl⟩
abbrev main_cst_8 : Ref sig .tc := ⟨.hbm, 44, rfl⟩
abbrev main_cst_9 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_10 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_11 : Ref sig .tc := ⟨.hbm, 73, rfl⟩
abbrev main_v39 : Ref sig .tc := ⟨.hbm, 74, rfl⟩
abbrev main_v40 : Ref sig .tc := ⟨.hbm, 75, rfl⟩
abbrev main_cst_12 : Ref sig .tc := ⟨.hbm, 76, rfl⟩
abbrev main_v41 : Ref sig .tc := ⟨.hbm, 77, rfl⟩
abbrev main_v42 : Ref sig .tc := ⟨.hbm, 78, rfl⟩
abbrev main_cst_13 : Ref sig .tc := ⟨.hbm, 79, rfl⟩
abbrev main_v43 : Ref sig .tc := ⟨.hbm, 80, rfl⟩
abbrev main_v44 : Ref sig .tc := ⟨.hbm, 81, rfl⟩
abbrev main_cst_14 : Ref sig .tc := ⟨.hbm, 82, rfl⟩
abbrev main_cst_15 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_16 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_17 : Ref sig .tc := ⟨.hbm, 98, rfl⟩
abbrev main_v53 : Ref sig .tc := ⟨.hbm, 99, rfl⟩
abbrev main_v54 : Ref sig .tc := ⟨.hbm, 100, rfl⟩
abbrev main_cst_18 : Ref sig .tc := ⟨.hbm, 101, rfl⟩
abbrev main_v55 : Ref sig .tc := ⟨.hbm, 102, rfl⟩
abbrev main_v56 : Ref sig .tc := ⟨.hbm, 103, rfl⟩
abbrev main_cst_19 : Ref sig .tc := ⟨.hbm, 104, rfl⟩
abbrev main_v57 : Ref sig .tc := ⟨.hbm, 105, rfl⟩
abbrev main_v58 : Ref sig .tc := ⟨.hbm, 106, rfl⟩
abbrev main_cst_20 : Ref sig .tc := ⟨.hbm, 107, rfl⟩
abbrev main_cst_21 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_22 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_23 : Ref sig .tc := ⟨.hbm, 122, rfl⟩
abbrev main_v66 : Ref sig .tc := ⟨.hbm, 123, rfl⟩
abbrev main_v67 : Ref sig .tc := ⟨.hbm, 124, rfl⟩
abbrev main_cst_24 : Ref sig .tc := ⟨.hbm, 125, rfl⟩
abbrev main_cst_25 : Ref sig .tc := ⟨.hbm, 126, rfl⟩
abbrev main_call10_v0 : Ref sig .tc := ⟨.hbm, 127, rfl⟩
abbrev main_call10_v1 : Ref sig .tc := ⟨.hbm, 128, rfl⟩
abbrev main_call10_v2 : Ref sig .tc := ⟨.hbm, 129, rfl⟩
abbrev main_call10_v3 : Ref sig .tc := ⟨.hbm, 130, rfl⟩
abbrev main_call10_v4 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_26 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_27 : Ref sig .tc := ⟨.hbm, 141, rfl⟩
abbrev main_v76 : Ref sig .tc := ⟨.hbm, 142, rfl⟩
abbrev main_v77 : Ref sig .tc := ⟨.hbm, 143, rfl⟩
abbrev main_cst_28 : Ref sig .tc := ⟨.hbm, 144, rfl⟩
abbrev main_v78 : Ref sig .tc := ⟨.hbm, 145, rfl⟩
abbrev main_v79 : Ref sig .tc := ⟨.hbm, 146, rfl⟩
abbrev main_cst_29 : Ref sig .tc := ⟨.hbm, 147, rfl⟩
abbrev main_v80 : Ref sig .tc := ⟨.hbm, 148, rfl⟩
abbrev main_v81 : Ref sig .tc := ⟨.hbm, 149, rfl⟩
abbrev main_cst_30 : Ref sig .tc := ⟨.hbm, 150, rfl⟩
abbrev main_cst_31 : Ref sig .tc := ⟨.hbm, 151, rfl⟩
abbrev main_call12_v0 : Ref sig .tc := ⟨.hbm, 152, rfl⟩
abbrev main_call12_v1 : Ref sig .tc := ⟨.hbm, 153, rfl⟩
abbrev main_call12_v2 : Ref sig .tc := ⟨.hbm, 154, rfl⟩
abbrev main_call12_v3 : Ref sig .tc := ⟨.hbm, 155, rfl⟩
abbrev main_call12_v4 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_32 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_cst_33 : Ref sig .tc := ⟨.hbm, 168, rfl⟩
abbrev main_v92 : Ref sig .tc := ⟨.hbm, 169, rfl⟩
abbrev main_v93 : Ref sig .tc := ⟨.hbm, 170, rfl⟩
abbrev main_cst_34 : Ref sig .tc := ⟨.hbm, 171, rfl⟩
abbrev main_cst_35 : Ref sig .tc := ⟨.hbm, 172, rfl⟩
abbrev main_call14_v0 : Ref sig .tc := ⟨.hbm, 173, rfl⟩
abbrev main_call14_v1 : Ref sig .tc := ⟨.hbm, 174, rfl⟩
abbrev main_call14_v2 : Ref sig .tc := ⟨.hbm, 175, rfl⟩
abbrev main_call14_v3 : Ref sig .tc := ⟨.hbm, 176, rfl⟩
abbrev main_call14_v4 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_36 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_cst_37 : Ref sig .tc := ⟨.hbm, 186, rfl⟩
abbrev main_v101 : Ref sig .tc := ⟨.hbm, 187, rfl⟩
abbrev main_v102 : Ref sig .tc := ⟨.hbm, 188, rfl⟩
abbrev main_cst_38 : Ref sig .tc := ⟨.hbm, 189, rfl⟩
abbrev main_cst_39 : Ref sig .tc := ⟨.hbm, 190, rfl⟩
abbrev main_call16_v0 : Ref sig .tc := ⟨.hbm, 191, rfl⟩
abbrev main_call16_v1 : Ref sig .tc := ⟨.hbm, 192, rfl⟩
abbrev main_call16_v2 : Ref sig .tc := ⟨.hbm, 193, rfl⟩
abbrev main_call16_v3 : Ref sig .tc := ⟨.hbm, 194, rfl⟩
abbrev main_call16_v4 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_40 : Ref sig .tc := ⟨.hbm, 200, rfl⟩
abbrev main_v107 : Ref sig .tc := ⟨.hbm, 201, rfl⟩
abbrev main_v108 : Ref sig .tc := ⟨.hbm, 202, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S_S8192x2048 : S_.BroadcastsInDim S8192x2048 (![] : Fin 0 → Fin S8192x2048.rank)
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  dot_S1024x2048_S8192x2048_S1024x8192_1_1_0_0_n_n_wf : DotDims.WF S1024x2048 S8192x2048 S1024x8192 [1] [1] [0] [0] [] []

variable [Facts₀]

def dot_S1024x2048_S8192x2048_S1024x8192_1_1_0_0_n_n : DotDims S1024x2048 S8192x2048 S1024x8192 where
  lhsContracting := [1]
  rhsContracting := [1]
  lhsNonContracting := [0]
  rhsNonContracting := [0]
  lhsBatch := []
  rhsBatch := []
  wf := dot_S1024x2048_S8192x2048_S1024x8192_1_1_0_0_n_n_wf

class Facts : Prop extends Facts₀ where

variable [Facts]
-- ==== Proof.Kernel.Region0.lean ====
/-
  The first launch of the quantised LSTM cell: the input x is fake-quantised and the hidden state hx is recast, both
  to bf16, 256 rows at a grid point.

  Stated at a parameter V, the contents of the core's buffers when the launch is entered.  At grid point t the body
  is handed rows [256 t, 256 t + 256) of x and of hx, loads both blocks whole, and stores into each output block,
  whole, a pointwise function of the one block it loaded; it also loads the output blocks before storing them, values
  it never uses.  So after the body each input block is as found and each output block is that pointwise function
  of its input block, whatever the output block held before.  The proof data of the launch's pipeline records exactly
  that; the body's run through its loads and stores is the symbolic executor's; the obligation of the pipeline at a
  grid point follows, the blocks the body is handed being the arrays' blocks because every window is fetched at
  every point.
-/
import proofs.«415429_j49383533969518_3_alg».proof.Proof.Gen.Kernel.Launch
import proofs.«415429_j49383533969518_3_alg».proof.Proof.Gen.Kernel.Skeleton
import proofs.«415429_j49383533969518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the x window holds the array's block at every point, for any proof data whose array is
    V's and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the hx window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of the whole 256 x 2048 block -/

abbrev r0 : Rect S256x2048 := Rect.unit (s := S256x2048) ![0, 0] S256x2048.size inb_S256x2048_S256x2048_0_0

/-! ## What the body leaves in each output block -/

/-- The quantised-x block after the body: one whole-block store of the quantiser applied to the x block. -/
def out0_2 (x0 : Vec F S256x2048 .f32) : Vec F S256x2048 .bf16 :=
  View.canon [⟨r0, k0_pay1 (View.ld x0 r0)⟩]

/-- The recast-hx block after the body: one whole-block store of the hx block recast to bf16. -/
def out0_3 (x1 : Vec F S256x2048 .f32) : Vec F S256x2048 .bf16 :=
  View.canon [⟨r0, k0_pay2 (View.ld x1 r0)⟩]

/-- One whole-block store covers the block. -/
theorem cover0 (p0 : Vec F S256x2048 .bf16) (y : S256x2048.Idx) :
    ∃ pc ∈ ([⟨r0, p0⟩] : List (View.Piece (Elt F) S256x2048 .bf16)), y ∈ pc.1.set :=
  View.cover_of_tiled [⟨r0, p0⟩] S256x2048.size (by rfl) y

/-! ## The body's run -/

set_option maxHeartbeats 1000000 in
/-- The body on whole staging buffers, the inputs' at contents x0 and x1 and the outputs' at anything, runs to the
    continuation holding the inputs' as they were and the outputs' at out0_2 x0 and out0_3 x1. -/
theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .bf16) (harg3 : arg3.IsWhole) (arg4 : Memref sig .tc .vmem S256x2048 .bf16) (harg4 : arg4.IsWhole)
    (x0 x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__quant_cast_kernel i arg1 harg1 arg2 harg2 arg3 harg3 arg4 harg4) K := by
  simp only [cc0__quant_cast_kernel_eq_skeleton]; unfold cc0__quant_cast_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  · iexists _; isplitr
    swap; · iexact H3
    ipureintro
    exact View.read_writes_eq_canon _ _ _ (cover0 _)

/-! ## The pipeline's proof data -/

/-- The proof data of the launch's pipeline on core c: the arrays as the launch finds them; after the body at point
    t each input block as found and each output block the body's function of its input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The pipeline's obligation at a grid point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold the arrays' blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Stages

end
-- ==== Proof.Kernel.Region1.lean ====
/-
  The second launch of the quantised LSTM cell: for gate g (grid axis 0, four values) and column tile n (grid axis
  1, eight values) the body forms the 1024 x 256 block of gate g's quantised activations.

  Stated at a parameter V, the contents of the core's buffers when the launch is entered.  At grid point t = (g, n)
  the body is handed the whole quantised input and the whole recast hidden state (both windows' block index is
  constant, so they are fetched at the first point only and found in place afterwards), rows [256 n, 256 n + 256) of
  gate g's slab of each weight array, and columns [256 n, 256 n + 256) of each bias array (all four gates' rows).  It
  loads the weight blocks and both activations whole, and row g of each bias block; quantises the weights; forms the
  two products and adds the biases; then, where g is not 2, stores the quantised logistic function of that sum into
  the output block, whole, and where g is 2 the quantised hyperbolic tangent of it.  Exactly one of the two stores
  happens at each point: the two conditions are "g differs from 2" and "g equals 2" computed on the 32-bit word of g,
  and g is below 4.  So after the body each input block is as found and the output block is one whole-block store
  whose payload is chosen by whether g is 2.  The output window is written back at every point, so what the pipeline
  asks of it after the body is this stated contents wherever the configuration's idle table says.
-/
import proofs.«415429_j49383533969518_3_alg».proof.Proof.Gen.Kernel.Launch
import proofs.«415429_j49383533969518_3_alg».proof.Proof.Gen.Kernel.Skeleton
import proofs.«415429_j49383533969518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the array's block at every point, fetched there or not (an unfetched
    window's block index has not moved), for any proof data whose array is V's and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1024 x 2048 block of an activation. -/
abbrev r1a : Rect S1024x2048 := Rect.unit (s := S1024x2048) ![0, 0] S1024x2048.size inb_S1024x2048_S1024x2048_0_0
/-- The whole 1 x 256 x 2048 block of a weight array. -/
abbrev r1w : Rect S1x256x2048 := Rect.unit (s := S1x256x2048) ![0, 0, 0] S1x256x2048.size inb_S1x256x2048_S1x256x2048_0_0_0
/-- Row g of a 4 x 256 bias block, g the point's first coordinate. -/
abbrev r1b (i : grid1.Coords) : Rect S4x256 := Rect.unit (s := S4x256) (k1_off1 i) S1x256.size (k1_off1_inb i)
/-- The whole 1 x 1024 x 256 output block. -/
abbrev r1o : Rect S1x1024x256 := Rect.unit (s := S1x1024x256) ![0, 0, 0] S1x1024x256.size inb_S1x1024x256_S1x1024x256_0_0_0

/-! ## What the body leaves in the output block -/

/-- The payload of the one store that happens at coordinates i: the quantised hyperbolic tangent of the
    pre-activation where the gate coordinate is 2, the quantised logistic function of it elsewhere. -/
def pay1_6 (i : grid1.Coords) (x0 x1 : Vec F S1024x2048 .bf16) (x2 x3 : Vec F S1x256x2048 .f32) (x4 x5 : Vec F S4x256 .f32) : Vec F S1x1024x256 .f32 :=
  if (i 0).val = 2 then
    k1_pay3 (k1_pay4 (View.ld x2 r1w) (View.ld x3 r1w) (View.ld x0 r1a) (View.ld x1 r1a)) (k1_pay5 (View.ld x4 (r1b i))) (View.ld x5 (r1b i))
  else
    k1_pay2 (k1_pay4 (View.ld x2 r1w) (View.ld x3 r1w) (View.ld x0 r1a) (View.ld x1 r1a)) (k1_pay5 (View.ld x4 (r1b i))) (View.ld x5 (r1b i))

/-- The output block after the body: one whole-block store of that payload. -/
def out1_6 (i : grid1.Coords) (x0 x1 : Vec F S1024x2048 .bf16) (x2 x3 : Vec F S1x256x2048 .f32) (x4 x5 : Vec F S4x256 .f32) : Vec F S1x1024x256 .f32 :=
  View.canon [⟨r1o, pay1_6 i x0 x1 x2 x3 x4 x5⟩]

/-- One whole-block store covers the block. -/
theorem cover1 (p0 : Vec F S1x1024x256 .f32) (y : S1x1024x256.Idx) :
    ∃ pc ∈ ([⟨r1o, p0⟩] : List (View.Piece (Elt F) S1x1024x256 .f32)), y ∈ pc.1.set :=
  View.cover_of_tiled [⟨r1o, p0⟩] S1x1024x256.size (by rfl) y

/-! ## The two conditions, decided by the gate coordinate -/

/-- The first condition's word computation at a gate value below 4: it gives 1 exactly where the value is not 2. -/
theorem cond1_aux : ∀ a : Fin 4,
    (Scalar.cmpi .ne (Scalar.extui (Scalar.cmpi .ne (BitVec.ofNat 32 a.val) (2#32))) (0#32) = 1#1 ↔ a.val ≠ 2) := by decide
/-- The second condition's word computation at a gate value below 4: it gives 1 exactly where the value is 2. -/
theorem cond2_aux : ∀ a : Fin 4,
    (Scalar.cmpi .ne (Scalar.extui (Scalar.cmpi .eq (BitVec.ofNat 32 a.val) (2#32))) (0#32) = 1#1 ↔ a.val = 2) := by decide

/-- The first condition holds exactly where the gate coordinate is not 2. -/
theorem cond1_iff (i : grid1.Coords) : k1_cond1 i = 1#1 ↔ (i 0).val ≠ 2 := by
  unfold k1_cond1
  dsimp only
  exact cond1_aux (i 0)
/-- The second condition holds exactly where the gate coordinate is 2. -/
theorem cond2_iff (i : grid1.Coords) : k1_cond2 i = 1#1 ↔ (i 0).val = 2 := by
  unfold k1_cond2
  dsimp only
  exact cond2_aux (i 0)

/-- Exactly one of the two conditions holds at every point, so the output window is idle at none. -/
theorem idle1_6 (i : grid1.Coords) : cfg1.idle 6 i = false := by
  show (!(k1_cond1 i == 1#1) && !(k1_cond2 i == 1#1)) = false
  by_cases hg : (i 0).val = 2
  · rw [(cond2_iff i).2 hg]; simp only [beq_self_eq_true, Bool.not_true, Bool.and_false]
  · rw [(cond1_iff i).2 hg]; simp only [beq_self_eq_true, Bool.not_true, Bool.false_and]

/-! ## The body's run -/

set_option maxHeartbeats 1000000 in
/-- The body on whole staging buffers, the inputs' at contents x0 … x5 and the output's at anything, runs to the
    continuation holding the inputs' as they were and the output's at out1_6 i x0 … x5. -/
theorem sound_kernel1 (c : Dev nD) (E : Set ℕ) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1x256x2048 .f32) (harg4 : arg4.IsWhole) (arg5 : Memref sig .tc .vmem S1x256x2048 .f32) (harg5 : arg5.IsWhole)
    (arg6 : Memref sig .tc .vmem S4x256 .f32) (harg6 : arg6.IsWhole) (arg7 : Memref sig .tc .vmem S4x256 .f32) (harg7 : arg7.IsWhole)
    (arg8 : Memref sig .tc .vmem S1x1024x256 .f32) (harg8 : arg8.IsWhole)
    (x0 x1 : Vec F S1024x2048 .bf16) (x2 x3 : Vec F S1x256x2048 .f32) (x4 x5 : Vec F S4x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E
          (cc1__kernel i arg2 harg2 arg3 harg3 arg4 harg4 arg5 harg5 arg6 harg6 arg7 harg7 arg8 harg8) K := by
  by_cases hg : (i 0).val = 2
  · have h1 : ¬ k1_cond1 i = 1#1 := fun h => (cond1_iff i).1 h hg
    have h2 : k1_cond2 i = 1#1 := (cond2_iff i).2 hg
    unfold out1_6 pay1_6
    rw [if_pos hg]
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0
    subst hf1
    subst hf2
    subst hf3
    subst hf4
    subst hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover1 _)
  · have h1 : k1_cond1 i = 1#1 := (cond1_iff i).2 hg
    have h2 : ¬ k1_cond2 i = 1#1 := fun h => hg ((cond2_iff i).1 h)
    unfold out1_6 pay1_6
    rw [if_neg hg]
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0
    subst hf1
    subst hf2
    subst hf3
    subst hf4
    subst hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover1 _)

/-! ## The pipeline's proof data -/

/-- The proof data of the launch's pipeline on core c: the arrays as the launch finds them; after the body at point
    t each input block as found and the output block the body's function of the input blocks and of the point's
    coordinates; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The pipeline's obligation at a grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every window's buffer at what the proof data say the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold the arrays' blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  rw [idle1_6 (cfg1.grid.coords t)]
  exact sound_body1 V c t

end Cert.Kernel.Stages

end
-- ==== Proof.Kernel.Region2.lean ====
/-
  The third launch of the quantised LSTM cell: the four quantised gates and the cell state are combined, 128 batch
  rows at a grid point.

  Stated at a parameter V, the contents of the core's buffers when the launch is entered.  At grid point t the body
  is handed rows [128 t, 128 t + 128) of each of the four gates (one block of shape 4 x 128 x 2048) and of the cell
  state, loads the four gate slabs and the cell-state block whole, and stores into each of the two output blocks,
  whole, a pointwise function of what it loaded: the new hidden state o * fq (tanh (f * c + i * g)) and the quantised
  new cell state fq (f * c + i * g).  It also loads each output block before storing it, values it never uses.  The
  proof data of the launch's pipeline records that each input block is left as found and each output block holds that
  function of the input blocks; the body's run through its loads and stores is the symbolic executor's; the
  pipeline's obligation at a grid point follows, every window being fetched at every point.
-/
import proofs.«415429_j49383533969518_3_alg».proof.Proof.Gen.Kernel.Launch
import proofs.«415429_j49383533969518_3_alg».proof.Proof.Gen.Kernel.Skeleton
import proofs.«415429_j49383533969518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the gates window holds the array's block at every point, for any proof data whose array is
    V's and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the cell-state window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 128 x 2048 block of the cell state and of each output. -/
abbrev r2 : Rect S128x2048 := Rect.unit (s := S128x2048) ![0, 0] S128x2048.size inb_S128x2048_S128x2048_0_0
/-- Gate g's slab of the 4 x 128 x 2048 gates block. -/
abbrev s2_0 : Rect S4x128x2048 := Rect.unit (s := S4x128x2048) ![0, 0, 0] S1x128x2048.size inb_S4x128x2048_S1x128x2048_0_0_0
abbrev s2_1 : Rect S4x128x2048 := Rect.unit (s := S4x128x2048) ![1, 0, 0] S1x128x2048.size inb_S4x128x2048_S1x128x2048_1_0_0
abbrev s2_2 : Rect S4x128x2048 := Rect.unit (s := S4x128x2048) ![2, 0, 0] S1x128x2048.size inb_S4x128x2048_S1x128x2048_2_0_0
abbrev s2_3 : Rect S4x128x2048 := Rect.unit (s := S4x128x2048) ![3, 0, 0] S1x128x2048.size inb_S4x128x2048_S1x128x2048_3_0_0

/-! ## What the body leaves in each output block -/

/-- The new-hidden-state block after the body: one whole-block store of o * fq (tanh (f * c + i * g)) over the four
    gate slabs and the cell-state block. -/
def out2_2 (x0 : Vec F S4x128x2048 .f32) (x1 : Vec F S128x2048 .f32) : Vec F S128x2048 .f32 :=
  View.canon [⟨r2, k2_pay2 (View.ld x0 s2_0) (View.ld x0 s2_1) (View.ld x0 s2_2) (View.ld x0 s2_3) (View.ld x1 r2)⟩]

/-- The new-cell-state block after the body: one whole-block store of fq (f * c + i * g). -/
def out2_3 (x0 : Vec F S4x128x2048 .f32) (x1 : Vec F S128x2048 .f32) : Vec F S128x2048 .f32 :=
  View.canon [⟨r2, k2_pay3 (View.ld x0 s2_0) (View.ld x0 s2_1) (View.ld x0 s2_2) (View.ld x1 r2)⟩]

/-- One whole-block store covers the block. -/
theorem cover2 (p0 : Vec F S128x2048 .f32) (y : S128x2048.Idx) :
    ∃ pc ∈ ([⟨r2, p0⟩] : List (View.Piece (Elt F) S128x2048 .f32)), y ∈ pc.1.set :=
  View.cover_of_tiled [⟨r2, p0⟩] S128x2048.size (by rfl) y

/-! ## The body's run -/

set_option maxHeartbeats 1000000 in
/-- The body on whole staging buffers, the inputs' at contents x0 and x1 and the outputs' at anything, runs to the
    continuation holding the inputs' as they were and the outputs' at out2_2 x0 x1 and out2_3 x0 x1. -/
theorem sound_kernel2 (c : Dev nD) (E : Set ℕ) (i : grid2.Coords)
    (arg1 : Memref sig .tc .vmem S4x128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (x0 : Vec F S4x128x2048 .f32) (x1 : Vec F S128x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  · iexists _; isplitr
    swap; · iexact H3
    ipureintro
    exact View.read_writes_eq_canon _ _ _ (cover2 _)

/-! ## The pipeline's proof data -/

/-- The proof data of the launch's pipeline on core c: the arrays as the launch finds them; after the body at point
    t each input block as found and each output block the body's function of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The pipeline's obligation at a grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold the arrays' blocks, so the body's run applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Stages

end
-- ==== Proof.Kernel.Run.lean ====
/-
  The whole run of the quantised LSTM cell's program: three launches with four reshapes between the first and the
  second.

  The contents of the core's unscoped buffers are followed through the program as a fold from the launch memory: a
  launch leaves its arrays at what its pipeline's write-backs leave and every other buffer as entered, a stretch of
  host operations leaves what the operations compute.  Each launch is entered from the buffers at the fold's
  contents before it and left at the contents after it, the generator register and the (empty) debts riding along;
  the launches' pipelines obligations are those of the three launch modules.  The conclusion: every weakly fair
  execution from any memory with zero semaphore counters terminates, nothing faulting, and in the final memory
  every unscoped buffer of every core holds the fold's last contents.  Read at the arguments the fold walks back to
  the launch memory (no launch writes an argument, no reshape writes one); read at the two results it is what the
  third launch's pipeline leaves in its two output arrays.
-/
import proofs.«415429_j49383533969518_3_alg».proof.Proof.Kernel.Region0
import proofs.«415429_j49383533969518_3_alg».proof.Proof.Kernel.Region1
import proofs.«415429_j49383533969518_3_alg».proof.Proof.Kernel.Region2
import proofs.«415429_j49383533969518_3_alg».proof.Proof.Gen.Kernel.Regions

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through the program -/

/-- Core c's buffers at launch. -/
abbrev W0 : Dev nD → Valuation τ sig (Elt F) := fun c b => m ((c : Dev nD), b)
/-- The same read at the TensorCore's references (what the first launch's proof data take). -/
abbrev V0 : (c : Dev nD) → (b : Ref sig .tc) → Buf (Elt F) ((c : Thread nD τ).loc b) := fun c b => W0 m c b
/-- At launch 0's exit: its arrays at what the pipeline leaves (the inputs as entered, each output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the four reshapes (the second launch's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At launch 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At launch 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (show main_arg0 ∉ hostOps1_W by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps1 _ hostOps1_writes (show main_arg1 ∉ hostOps1_W by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := (W4_arr m c 1).trans (((dat2 (V3 m) c).arrAt_in 1 rfl _).trans (A_eq2 (V3 m) c 1))
    _ = W2 m c (Proc.devRef .tc main_arg2) := W3_of_ne m c main_arg2 (by decide)
    _ = W1 m c (Proc.devRef .tc main_arg2) := StableHlo.after_of_writes_sub hostOps1 _ hostOps1_writes (show main_arg2 ∉ hostOps1_W by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_writes_sub hostOps1 _ hostOps1_writes (show main_arg3 ∉ hostOps1_W by decide)
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_writes_sub hostOps1 _ hostOps1_writes (show main_arg4 ∉ hostOps1_W by decide)
    _ = W0 m c (Proc.devRef .tc main_arg4) := W1_of_ne m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := StableHlo.after_of_writes_sub hostOps1 _ hostOps1_writes (show main_arg5 ∉ hostOps1_W by decide)
    _ = W0 m c (Proc.devRef .tc main_arg5) := W1_of_ne m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := StableHlo.after_of_writes_sub hostOps1 _ hostOps1_writes (show main_arg6 ∉ hostOps1_W by decide)
    _ = W0 m c (Proc.devRef .tc main_arg6) := W1_of_ne m c main_arg6 (by decide)
    _ = m ((c : Thread nD τ).loc main_arg6) := rfl

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- The stretch of reshapes as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the fold's last contents, the generator
    register at some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at `W0`, left at `W1`.  Its arrays are
    split out of the unscoped buffers and put back at the contents the pipeline leaves; the generator register goes
    into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`.  Its arrays are
    split out of the unscoped buffers and put back at the contents the pipeline leaves; the generator register goes
    into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W3`, left at `W4`.  Its arrays are
    split out of the unscoped buffers and put back at the contents the pipeline leaves; the generator register goes
    into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
/-- The program is the run of the segments. -/
theorem main_run (c : Dev nD) : main (F := F) c = Pipeline.Seg.run (segs m) := (main_chain c).trans (by chain_rfl)

set_option backward.isDefEq.respectTransparency.types false in
/-- From any memory with zero semaphore counters every weakly fair execution of the program terminates, nothing
    faulting, and every unscoped buffer of every core ends at the fold's last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Stages

end
-- ==== Proof.KernelIdeal.Region0.lean ====
/-
  The first launch of the quantised LSTM cell: the input x is fake-quantised and the hidden state hx is recast, both
  to bf16, 256 rows at a grid point.

  Stated at a parameter V, the contents of the core's buffers when the launch is entered.  At grid point t the body
  is handed rows [256 t, 256 t + 256) of x and of hx, loads both blocks whole, and stores into each output block,
  whole, a pointwise function of the one block it loaded; it also loads the output blocks before storing them, values
  it never uses.  So after the body each input block is as found and each output block is that pointwise function
  of its input block, whatever the output block held before.  The proof data of the launch's pipeline records exactly
  that; the body's run through its loads and stores is the symbolic executor's; the obligation of the pipeline at a
  grid point follows, the blocks the body is handed being the arrays' blocks because every window is fetched at
  every point.
-/
import proofs.«415429_j49383533969518_3_alg».proof.Proof.Gen.KernelIdeal.Launch
import proofs.«415429_j49383533969518_3_alg».proof.Proof.Gen.KernelIdeal.Skeleton
import proofs.«415429_j49383533969518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the x window holds the array's block at every point, for any proof data whose array is
    V's and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the hx window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of the whole 256 x 2048 block -/

abbrev r0 : Rect S256x2048 := Rect.unit (s := S256x2048) ![0, 0] S256x2048.size inb_S256x2048_S256x2048_0_0

/-! ## What the body leaves in each output block -/

/-- The quantised-x block after the body: one whole-block store of the quantiser applied to the x block. -/
def out0_2 (x0 : Vec F S256x2048 .f32) : Vec F S256x2048 .bf16 :=
  View.canon [⟨r0, k0_pay1 (View.ld x0 r0)⟩]

/-- The recast-hx block after the body: one whole-block store of the hx block recast to bf16. -/
def out0_3 (x1 : Vec F S256x2048 .f32) : Vec F S256x2048 .bf16 :=
  View.canon [⟨r0, k0_pay2 (View.ld x1 r0)⟩]

/-- One whole-block store covers the block. -/
theorem cover0 (p0 : Vec F S256x2048 .bf16) (y : S256x2048.Idx) :
    ∃ pc ∈ ([⟨r0, p0⟩] : List (View.Piece (Elt F) S256x2048 .bf16)), y ∈ pc.1.set :=
  View.cover_of_tiled [⟨r0, p0⟩] S256x2048.size (by rfl) y

/-! ## The body's run -/

set_option maxHeartbeats 1000000 in
/-- The body on whole staging buffers, the inputs' at contents x0 and x1 and the outputs' at anything, runs to the
    continuation holding the inputs' as they were and the outputs' at out0_2 x0 and out0_3 x1. -/
theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .bf16) (harg3 : arg3.IsWhole) (arg4 : Memref sig .tc .vmem S256x2048 .bf16) (harg4 : arg4.IsWhole)
    (x0 x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__quant_cast_kernel i arg1 harg1 arg2 harg2 arg3 harg3 arg4 harg4) K := by
  simp only [cc0__quant_cast_kernel_eq_skeleton]; unfold cc0__quant_cast_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  · iexists _; isplitr
    swap; · iexact H3
    ipureintro
    exact View.read_writes_eq_canon _ _ _ (cover0 _)

/-! ## The pipeline's proof data -/

/-- The proof data of the launch's pipeline on core c: the arrays as the launch finds them; after the body at point
    t each input block as found and each output block the body's function of its input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The pipeline's obligation at a grid point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold the arrays' blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Stages

end
-- ==== Proof.KernelIdeal.Region1.lean ====
/-
  The second launch of the quantised LSTM cell: for gate g (grid axis 0, four values) and column tile n (grid axis
  1, eight values) the body forms the 1024 x 256 block of gate g's quantised activations.

  Stated at a parameter V, the contents of the core's buffers when the launch is entered.  At grid point t = (g, n)
  the body is handed the whole quantised input and the whole recast hidden state (both windows' block index is
  constant, so they are fetched at the first point only and found in place afterwards), rows [256 n, 256 n + 256) of
  gate g's slab of each weight array, and columns [256 n, 256 n + 256) of each bias array (all four gates' rows).  It
  loads the weight blocks and both activations whole, and row g of each bias block; quantises the weights; forms the
  two products and adds the biases; then, where g is not 2, stores the quantised logistic function of that sum into
  the output block, whole, and where g is 2 the quantised hyperbolic tangent of it.  Exactly one of the two stores
  happens at each point: the two conditions are "g differs from 2" and "g equals 2" computed on the 32-bit word of g,
  and g is below 4.  So after the body each input block is as found and the output block is one whole-block store
  whose payload is chosen by whether g is 2.  The output window is written back at every point, so what the pipeline
  asks of it after the body is this stated contents wherever the configuration's idle table says.
-/
import proofs.«415429_j49383533969518_3_alg».proof.Proof.Gen.KernelIdeal.Launch
import proofs.«415429_j49383533969518_3_alg».proof.Proof.Gen.KernelIdeal.Skeleton
import proofs.«415429_j49383533969518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the array's block at every point, fetched there or not (an unfetched
    window's block index has not moved), for any proof data whose array is V's and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1024 x 2048 block of an activation. -/
abbrev r1a : Rect S1024x2048 := Rect.unit (s := S1024x2048) ![0, 0] S1024x2048.size inb_S1024x2048_S1024x2048_0_0
/-- The whole 1 x 256 x 2048 block of a weight array. -/
abbrev r1w : Rect S1x256x2048 := Rect.unit (s := S1x256x2048) ![0, 0, 0] S1x256x2048.size inb_S1x256x2048_S1x256x2048_0_0_0
/-- Row g of a 4 x 256 bias block, g the point's first coordinate. -/
abbrev r1b (i : grid1.Coords) : Rect S4x256 := Rect.unit (s := S4x256) (k1_off1 i) S1x256.size (k1_off1_inb i)
/-- The whole 1 x 1024 x 256 output block. -/
abbrev r1o : Rect S1x1024x256 := Rect.unit (s := S1x1024x256) ![0, 0, 0] S1x1024x256.size inb_S1x1024x256_S1x1024x256_0_0_0

/-! ## What the body leaves in the output block -/

/-- The payload of the one store that happens at coordinates i: the quantised hyperbolic tangent of the
    pre-activation where the gate coordinate is 2, the quantised logistic function of it elsewhere. -/
def pay1_6 (i : grid1.Coords) (x0 x1 : Vec F S1024x2048 .bf16) (x2 x3 : Vec F S1x256x2048 .f32) (x4 x5 : Vec F S4x256 .f32) : Vec F S1x1024x256 .f32 :=
  if (i 0).val = 2 then
    k1_pay3 (k1_pay4 (View.ld x2 r1w) (View.ld x3 r1w) (View.ld x0 r1a) (View.ld x1 r1a)) (k1_pay5 (View.ld x4 (r1b i))) (View.ld x5 (r1b i))
  else
    k1_pay2 (k1_pay4 (View.ld x2 r1w) (View.ld x3 r1w) (View.ld x0 r1a) (View.ld x1 r1a)) (k1_pay5 (View.ld x4 (r1b i))) (View.ld x5 (r1b i))

/-- The output block after the body: one whole-block store of that payload. -/
def out1_6 (i : grid1.Coords) (x0 x1 : Vec F S1024x2048 .bf16) (x2 x3 : Vec F S1x256x2048 .f32) (x4 x5 : Vec F S4x256 .f32) : Vec F S1x1024x256 .f32 :=
  View.canon [⟨r1o, pay1_6 i x0 x1 x2 x3 x4 x5⟩]

/-- One whole-block store covers the block. -/
theorem cover1 (p0 : Vec F S1x1024x256 .f32) (y : S1x1024x256.Idx) :
    ∃ pc ∈ ([⟨r1o, p0⟩] : List (View.Piece (Elt F) S1x1024x256 .f32)), y ∈ pc.1.set :=
  View.cover_of_tiled [⟨r1o, p0⟩] S1x1024x256.size (by rfl) y

/-! ## The two conditions, decided by the gate coordinate -/

/-- The first condition's word computation at a gate value below 4: it gives 1 exactly where the value is not 2. -/
theorem cond1_aux : ∀ a : Fin 4,
    (Scalar.cmpi .ne (Scalar.extui (Scalar.cmpi .ne (BitVec.ofNat 32 a.val) (2#32))) (0#32) = 1#1 ↔ a.val ≠ 2) := by decide
/-- The second condition's word computation at a gate value below 4: it gives 1 exactly where the value is 2. -/
theorem cond2_aux : ∀ a : Fin 4,
    (Scalar.cmpi .ne (Scalar.extui (Scalar.cmpi .eq (BitVec.ofNat 32 a.val) (2#32))) (0#32) = 1#1 ↔ a.val = 2) := by decide

/-- The first condition holds exactly where the gate coordinate is not 2. -/
theorem cond1_iff (i : grid1.Coords) : k1_cond1 i = 1#1 ↔ (i 0).val ≠ 2 := by
  unfold k1_cond1
  dsimp only
  exact cond1_aux (i 0)
/-- The second condition holds exactly where the gate coordinate is 2. -/
theorem cond2_iff (i : grid1.Coords) : k1_cond2 i = 1#1 ↔ (i 0).val = 2 := by
  unfold k1_cond2
  dsimp only
  exact cond2_aux (i 0)

/-- Exactly one of the two conditions holds at every point, so the output window is idle at none. -/
theorem idle1_6 (i : grid1.Coords) : cfg1.idle 6 i = false := by
  show (!(k1_cond1 i == 1#1) && !(k1_cond2 i == 1#1)) = false
  by_cases hg : (i 0).val = 2
  · rw [(cond2_iff i).2 hg]; simp only [beq_self_eq_true, Bool.not_true, Bool.and_false]
  · rw [(cond1_iff i).2 hg]; simp only [beq_self_eq_true, Bool.not_true, Bool.false_and]

/-! ## The body's run -/

set_option maxHeartbeats 1000000 in
/-- The body on whole staging buffers, the inputs' at contents x0 … x5 and the output's at anything, runs to the
    continuation holding the inputs' as they were and the output's at out1_6 i x0 … x5. -/
theorem sound_kernel1 (c : Dev nD) (E : Set ℕ) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1x256x2048 .f32) (harg4 : arg4.IsWhole) (arg5 : Memref sig .tc .vmem S1x256x2048 .f32) (harg5 : arg5.IsWhole)
    (arg6 : Memref sig .tc .vmem S4x256 .f32) (harg6 : arg6.IsWhole) (arg7 : Memref sig .tc .vmem S4x256 .f32) (harg7 : arg7.IsWhole)
    (arg8 : Memref sig .tc .vmem S1x1024x256 .f32) (harg8 : arg8.IsWhole)
    (x0 x1 : Vec F S1024x2048 .bf16) (x2 x3 : Vec F S1x256x2048 .f32) (x4 x5 : Vec F S4x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E
          (cc1__kernel i arg2 harg2 arg3 harg3 arg4 harg4 arg5 harg5 arg6 harg6 arg7 harg7 arg8 harg8) K := by
  by_cases hg : (i 0).val = 2
  · have h1 : ¬ k1_cond1 i = 1#1 := fun h => (cond1_iff i).1 h hg
    have h2 : k1_cond2 i = 1#1 := (cond2_iff i).2 hg
    unfold out1_6 pay1_6
    rw [if_pos hg]
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0
    subst hf1
    subst hf2
    subst hf3
    subst hf4
    subst hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover1 _)
  · have h1 : k1_cond1 i = 1#1 := (cond1_iff i).2 hg
    have h2 : ¬ k1_cond2 i = 1#1 := fun h => hg ((cond2_iff i).1 h)
    unfold out1_6 pay1_6
    rw [if_neg hg]
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0
    subst hf1
    subst hf2
    subst hf3
    subst hf4
    subst hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover1 _)

/-! ## The pipeline's proof data -/

/-- The proof data of the launch's pipeline on core c: the arrays as the launch finds them; after the body at point
    t each input block as found and the output block the body's function of the input blocks and of the point's
    coordinates; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The pipeline's obligation at a grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every window's buffer at what the proof data say the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold the arrays' blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  rw [idle1_6 (cfg1.grid.coords t)]
  exact sound_body1 V c t

end Cert.KernelIdeal.Stages

end
-- ==== Proof.KernelIdeal.Region2.lean ====
/-
  The third launch of the quantised LSTM cell: the four quantised gates and the cell state are combined, 128 batch
  rows at a grid point.

  Stated at a parameter V, the contents of the core's buffers when the launch is entered.  At grid point t the body
  is handed rows [128 t, 128 t + 128) of each of the four gates (one block of shape 4 x 128 x 2048) and of the cell
  state, loads the four gate slabs and the cell-state block whole, and stores into each of the two output blocks,
  whole, a pointwise function of what it loaded: the new hidden state o * fq (tanh (f * c + i * g)) and the quantised
  new cell state fq (f * c + i * g).  It also loads each output block before storing it, values it never uses.  The
  proof data of the launch's pipeline records that each input block is left as found and each output block holds that
  function of the input blocks; the body's run through its loads and stores is the symbolic executor's; the
  pipeline's obligation at a grid point follows, every window being fetched at every point.
-/
import proofs.«415429_j49383533969518_3_alg».proof.Proof.Gen.KernelIdeal.Launch
import proofs.«415429_j49383533969518_3_alg».proof.Proof.Gen.KernelIdeal.Skeleton
import proofs.«415429_j49383533969518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the gates window holds the array's block at every point, for any proof data whose array is
    V's and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the cell-state window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 128 x 2048 block of the cell state and of each output. -/
abbrev r2 : Rect S128x2048 := Rect.unit (s := S128x2048) ![0, 0] S128x2048.size inb_S128x2048_S128x2048_0_0
/-- Gate g's slab of the 4 x 128 x 2048 gates block. -/
abbrev s2_0 : Rect S4x128x2048 := Rect.unit (s := S4x128x2048) ![0, 0, 0] S1x128x2048.size inb_S4x128x2048_S1x128x2048_0_0_0
abbrev s2_1 : Rect S4x128x2048 := Rect.unit (s := S4x128x2048) ![1, 0, 0] S1x128x2048.size inb_S4x128x2048_S1x128x2048_1_0_0
abbrev s2_2 : Rect S4x128x2048 := Rect.unit (s := S4x128x2048) ![2, 0, 0] S1x128x2048.size inb_S4x128x2048_S1x128x2048_2_0_0
abbrev s2_3 : Rect S4x128x2048 := Rect.unit (s := S4x128x2048) ![3, 0, 0] S1x128x2048.size inb_S4x128x2048_S1x128x2048_3_0_0

/-! ## What the body leaves in each output block -/

/-- The new-hidden-state block after the body: one whole-block store of o * fq (tanh (f * c + i * g)) over the four
    gate slabs and the cell-state block. -/
def out2_2 (x0 : Vec F S4x128x2048 .f32) (x1 : Vec F S128x2048 .f32) : Vec F S128x2048 .f32 :=
  View.canon [⟨r2, k2_pay2 (View.ld x0 s2_0) (View.ld x0 s2_1) (View.ld x0 s2_2) (View.ld x0 s2_3) (View.ld x1 r2)⟩]

/-- The new-cell-state block after the body: one whole-block store of fq (f * c + i * g). -/
def out2_3 (x0 : Vec F S4x128x2048 .f32) (x1 : Vec F S128x2048 .f32) : Vec F S128x2048 .f32 :=
  View.canon [⟨r2, k2_pay3 (View.ld x0 s2_0) (View.ld x0 s2_1) (View.ld x0 s2_2) (View.ld x1 r2)⟩]

/-- One whole-block store covers the block. -/
theorem cover2 (p0 : Vec F S128x2048 .f32) (y : S128x2048.Idx) :
    ∃ pc ∈ ([⟨r2, p0⟩] : List (View.Piece (Elt F) S128x2048 .f32)), y ∈ pc.1.set :=
  View.cover_of_tiled [⟨r2, p0⟩] S128x2048.size (by rfl) y

/-! ## The body's run -/

set_option maxHeartbeats 1000000 in
/-- The body on whole staging buffers, the inputs' at contents x0 and x1 and the outputs' at anything, runs to the
    continuation holding the inputs' as they were and the outputs' at out2_2 x0 x1 and out2_3 x0 x1. -/
theorem sound_kernel2 (c : Dev nD) (E : Set ℕ) (i : grid2.Coords)
    (arg1 : Memref sig .tc .vmem S4x128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (x0 : Vec F S4x128x2048 .f32) (x1 : Vec F S128x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  · iexists _; isplitr
    swap; · iexact H3
    ipureintro
    exact View.read_writes_eq_canon _ _ _ (cover2 _)

/-! ## The pipeline's proof data -/

/-- The proof data of the launch's pipeline on core c: the arrays as the launch finds them; after the body at point
    t each input block as found and each output block the body's function of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The pipeline's obligation at a grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold the arrays' blocks, so the body's run applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Stages

end
-- ==== Proof.KernelIdeal.Run.lean ====
/-
  The whole run of the quantised LSTM cell's program: three launches with four reshapes between the first and the
  second.

  The contents of the core's unscoped buffers are followed through the program as a fold from the launch memory: a
  launch leaves its arrays at what its pipeline's write-backs leave and every other buffer as entered, a stretch of
  host operations leaves what the operations compute.  Each launch is entered from the buffers at the fold's
  contents before it and left at the contents after it, the generator register and the (empty) debts riding along;
  the launches' pipelines obligations are those of the three launch modules.  The conclusion: every weakly fair
  execution from any memory with zero semaphore counters terminates, nothing faulting, and in the final memory
  every unscoped buffer of every core holds the fold's last contents.  Read at the arguments the fold walks back to
  the launch memory (no launch writes an argument, no reshape writes one); read at the two results it is what the
  third launch's pipeline leaves in its two output arrays.
-/
import proofs.«415429_j49383533969518_3_alg».proof.Proof.KernelIdeal.Region0
import proofs.«415429_j49383533969518_3_alg».proof.Proof.KernelIdeal.Region1
import proofs.«415429_j49383533969518_3_alg».proof.Proof.KernelIdeal.Region2
import proofs.«415429_j49383533969518_3_alg».proof.Proof.Gen.KernelIdeal.Regions

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary: a fold through the program -/

/-- Core c's buffers at launch. -/
abbrev W0 : Dev nD → Valuation τ sig (Elt F) := fun c b => m ((c : Dev nD), b)
/-- The same read at the TensorCore's references (what the first launch's proof data take). -/
abbrev V0 : (c : Dev nD) → (b : Ref sig .tc) → Buf (Elt F) ((c : Thread nD τ).loc b) := fun c b => W0 m c b
/-- At launch 0's exit: its arrays at what the pipeline leaves (the inputs as entered, each output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the four reshapes (the second launch's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At launch 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At launch 2's exit: its arrays at what the pipeline leaves (the inputs as entered, each output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (show main_arg0 ∉ hostOps1_W by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps1 _ hostOps1_writes (show main_arg1 ∉ hostOps1_W by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := (W4_arr m c 1).trans (((dat2 (V3 m) c).arrAt_in 1 rfl _).trans (A_eq2 (V3 m) c 1))
    _ = W2 m c (Proc.devRef .tc main_arg2) := W3_of_ne m c main_arg2 (by decide)
    _ = W1 m c (Proc.devRef .tc main_arg2) := StableHlo.after_of_writes_sub hostOps1 _ hostOps1_writes (show main_arg2 ∉ hostOps1_W by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_writes_sub hostOps1 _ hostOps1_writes (show main_arg3 ∉ hostOps1_W by decide)
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_writes_sub hostOps1 _ hostOps1_writes (show main_arg4 ∉ hostOps1_W by decide)
    _ = W0 m c (Proc.devRef .tc main_arg4) := W1_of_ne m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := StableHlo.after_of_writes_sub hostOps1 _ hostOps1_writes (show main_arg5 ∉ hostOps1_W by decide)
    _ = W0 m c (Proc.devRef .tc main_arg5) := W1_of_ne m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := StableHlo.after_of_writes_sub hostOps1 _ hostOps1_writes (show main_arg6 ∉ hostOps1_W by decide)
    _ = W0 m c (Proc.devRef .tc main_arg6) := W1_of_ne m c main_arg6 (by decide)
    _ = m ((c : Thread nD τ).loc main_arg6) := rfl

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- The stretch of reshapes as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the fold's last contents, the generator
    register at some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at `W0`, left at `W1`.  Its arrays are
    split out of the unscoped buffers and put back at the contents the pipeline leaves; the generator register goes
    into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`.  Its arrays are
    split out of the unscoped buffers and put back at the contents the pipeline leaves; the generator register goes
    into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W3`, left at `W4`.  Its arrays are
    split out of the unscoped buffers and put back at the contents the pipeline leaves; the generator register goes
    into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
/-- The program is the run of the segments. -/
theorem main_run (c : Dev nD) : main (F := F) c = Pipeline.Seg.run (segs m) := (main_chain c).trans (by chain_rfl)

set_option backward.isDefEq.respectTransparency.types false in
/-- From any memory with zero semaphore counters every weakly fair execution of the program terminates, nothing
    faulting, and every unscoped buffer of every core ends at the fold's last contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Stages

end
-- ==== Proof.Spec.lean ====
/-
  The quantised LSTM cell as functions on the extended reals, stage by stage.

  A fake quantiser to 8 bits scales by 127, clips to [-127, 127], rounds to the nearest integer (ties to even) and
  scales back by 1/127.  The cell quantises its input x and both weight matrices, forms the four gate
  pre-activations (row b of the quantised x against row G of the quantised input weights, plus row b of the hidden
  state against row G of the quantised hidden weights, plus both biases), applies the logistic function to gates
  0, 1, 3 and the hyperbolic tangent to gate 2, quantises each, and combines them with the cell state:
  c' = f * c + i * g, h' = o * fq (tanh c'), and the returned cell state is fq c'.

  Gate g, column j lives at row g * 2048 + j of the weight matrices and of the bias vectors.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A1 (n : Nat) : Type := (⟨1, ![n]⟩ : Shape).Idx → EReal
abbrev A2 (a b : Nat) : Type := (⟨2, ![a, b]⟩ : Shape).Idx → EReal
abbrev A3 (a b c : Nat) : Type := (⟨3, ![a, b, c]⟩ : Shape).Idx → EReal

/-- Rounding to the nearest integer, ties to even; the infinities fixed. -/
def rnd (v : EReal) : EReal := Ideal.liftRound Ideal.roundHalfEven v
/-- The f32 pattern of 127.0. -/
def c127 : EReal := Ideal.ofBits .f32 0x42FE0000#32
/-- The f32 pattern of -127.0. -/
def cN127 : EReal := Ideal.ofBits .f32 0xC2FE0000#32
/-- The step of the quantiser. -/
def inv127 : EReal := ((1 / 127 : ℝ) : EReal)

/-- The scaled and clipped value, before rounding. -/
def clip127 (v : EReal) : EReal := min c127 (max cN127 (v * c127))
/-- The fake quantiser: scale, clip, round, scale back by the step. -/
def fq (v : EReal) : EReal := rnd (clip127 v) * inv127

/-- The activation of gate g: the hyperbolic tangent for the cell gate (2), the logistic function for the others. -/
def act (g : Fin 4) (v : EReal) : EReal := if g.val = 2 then Ideal.tanh v else Ideal.logistic v

/-- Row g * 2048 + j of a [8192, ·] array: gate g, column j. -/
def gcol (g : Fin 4) (j : Fin 2048) : Fin 8192 := ⟨g.val * 2048 + j.val, by have := g.isLt; have := j.isLt; omega⟩

/-- The quantised input. -/
def xqOf (x : A2 1024 2048) : A2 1024 2048 := fun i => fq (x i)
/-- A [8192, 2048] weight matrix seen as [4, 2048, 2048]: gate, column, contraction index. -/
def w3Of (w : A2 8192 2048) : A3 4 2048 2048 := fun i => w (ix2 (gcol (i 0) (i 1)) (i 2))
/-- A [8192] bias vector seen as [4, 2048]. -/
def b2Of (b : A1 8192) : A2 4 2048 := fun i => b (ix1 (gcol (i 0) (i 1)))

/-- The pre-activation of gate g, batch row b, column j: the two products, then the two biases. -/
def preOf (xq hq : A2 1024 2048) (w1 w2 : A3 4 2048 2048) (b1 b2 : A2 4 2048) (g : Fin 4) (b : Fin 1024) (j : Fin 2048) : EReal :=
  ((∑ k : Fin 2048, xq (ix2 b k) * fq (w1 (ix3 g j k))) + (∑ k : Fin 2048, hq (ix2 b k) * fq (w2 (ix3 g j k))))
    + b1 (ix2 g j) + b2 (ix2 g j)
/-- The four quantised gates as one [4, 1024, 2048] array. -/
def gateOf (xq hq : A2 1024 2048) (w1 w2 : A3 4 2048 2048) (b1 b2 : A2 4 2048) : A3 4 1024 2048 :=
  fun i => fq (act (i 0) (preOf xq hq w1 w2 b1 b2 (i 0) (i 1) (i 2)))

/-- The new cell state before quantising, at (b, j): f * c + i * g. -/
def cNewOf (go : A3 4 1024 2048) (cx : A2 1024 2048) (b : Fin 1024) (j : Fin 2048) : EReal :=
  go (ix3 (0 : Fin 4) b j) * cx (ix2 b j) + go (ix3 (1 : Fin 4) b j) * go (ix3 (2 : Fin 4) b j)
/-- The new hidden state: o * fq (tanh c'). -/
def hOf (go : A3 4 1024 2048) (cx : A2 1024 2048) : A2 1024 2048 :=
  fun i => go (ix3 (3 : Fin 4) (i 0) (i 1)) * fq (Ideal.tanh (cNewOf go cx (i 0) (i 1)))
/-- The returned cell state: fq c'. -/
def cOf (go : A3 4 1024 2048) (cx : A2 1024 2048) : A2 1024 2048 :=
  fun i => fq (cNewOf go cx (i 0) (i 1))

/-- The gates from the seven arguments. -/
def gatesOfArgs (x hx : A2 1024 2048) (wx : A2 8192 2048) (bx : A1 8192) (wh : A2 8192 2048) (bh : A1 8192) : A3 4 1024 2048 :=
  gateOf (xqOf x) hx (w3Of wx) (w3Of wh) (b2Of bx) (b2Of bh)
/-- The cell's first result, the new hidden state, from the seven arguments. -/
def hNew (x hx cx : A2 1024 2048) (wx : A2 8192 2048) (bx : A1 8192) (wh : A2 8192 2048) (bh : A1 8192) : A2 1024 2048 :=
  hOf (gatesOfArgs x hx wx bx wh bh) cx
/-- The cell's second result, the quantised new cell state. -/
def cOut (x hx cx : A2 1024 2048) (wx : A2 8192 2048) (bx : A1 8192) (wh : A2 8192 2048) (bh : A1 8192) : A2 1024 2048 :=
  cOf (gatesOfArgs x hx wx bx wh bh) cx

end Cert.Spec

end
-- ==== Proof.KernelIdeal.Consts.lean ====
/-
  The one named constant of the idealised kernel: the quantiser's step, named 1/127 by the certificate's table, is the
  rational 1/127 on the extended reals.
-/
import proofs.«415429_j49383533969518_3_alg».proof.KernelIdeal
import proofs.«415429_j49383533969518_3_alg».proof.Proof.Spec
import Idealize.ShloMosaic.PureOps.IdealRules

noncomputable section

namespace Cert.KernelIdeal.Stages

open Idealize.ShloMosaic

/-- The kernel's named step denotes the rational 1/127 at the exact instance, by the certificate's table. -/
theorem inv127_named : Named.named (F := Ideal) Cert.KernelIdeal.κ "inv_127" (φ := .f32) 0x3C010204#32 = Cert.Spec.inv127 :=
  IdealRules.named_const.ideal_named_scalar _ _ _ _ rfl

end Cert.KernelIdeal.Stages

end
-- ==== Proof.KernelIdeal.Val0.lean ====
/-
  What the first launch leaves in its two output arrays, on the extended reals.

  Grid point t writes back rows [256 t, 256 t + 256) of each output; the four points cover the 1024 rows.  The block
  written for the quantised input is, entry by entry, the quantiser applied to the same entry of x (the recast to
  bf16 is the identity on the extended reals, and the step constant is the rational 1/127); the block written for the
  hidden state is the same entries of hx.  So the whole arrays after the launch are the quantiser applied entrywise
  to x, and hx itself.
-/
import proofs.«415429_j49383533969518_3_alg».proof.Proof.KernelIdeal.Region0
import proofs.«415429_j49383533969518_3_alg».proof.Proof.KernelIdeal.Consts
import proofs.«415429_j49383533969518_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's two stored values, entry by entry -/

/-- The body's store rectangle starts at the block's origin on both axes. -/
theorem origin0 : (![0, 0] : Fin 2 → Nat) = fun _ => 0 := funext fun a => by fin_cases a <;> rfl

/-- Entry y of the value stored into the quantised-input block is the quantiser applied to entry y of the loaded x
    block: scale by 127, clip to [-127, 127], round to even, scale by the step; the named step is the rational 1/127,
    and the recast to bf16 is the identity on the extended reals. -/
theorem quantised_entry0 (x0 : Vec Ideal S256x2048 .f32) (y : S256x2048.Idx) :
    k0_pay1 x0 y = Cert.Spec.fq (x0 y) := by
  unfold k0_pay1 Cert.Spec.fq Cert.Spec.clip127 Cert.Spec.rnd Cert.Spec.c127 Cert.Spec.cN127
  rw [← inv127_named]
  rfl

/-- Entry y of the value stored into the recast hidden-state block is entry y of the loaded hx block: the recast to
    bf16 is the identity on the extended reals. -/
theorem recast_entry0 (x1 : Vec Ideal S256x2048 .f32) (y : S256x2048.Idx) :
    k0_pay2 x1 y = x1 y := rfl

/-! ## Where the blocks sit -/

/-- At grid point t every one of the four windows sits at block (t, 0): rows [256 t, 256 t + 256), all columns. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## What a grid point writes back -/

/-- Point t writes back to the quantised-input array block t of the quantiser applied entrywise to x: the x block and
    the output block sit at the same rows and columns, so entry y of the one is quantised into entry y of the other. -/
theorem flushed_xq0 (c : Dev nD) (t : Fin cfg0.N) :
    (dat0 V c).flushed 2 t = ((cfg0.win 2).blk t).view.read (Elt Ideal) (Cert.Spec.xqOf (V c main_arg0)) := by
  show (cfg0.win 2).cut (grid0.coords t) ((dat0 V c).after 2 t) = _
  rw [after0_2]
  unfold out0_2
  rw [View.canon_unit_zero origin0]
  simp only [View.ld_unit_zero (S := S256x2048) origin0]
  obtain ⟨e0, e1, e2, e3, e4, e5, e6, e7⟩ := block_index0 t
  funext y
  show k0_pay1 (iblk0 V c 0 t) y = Cert.Spec.fq (V c main_arg0 (((cfg0.win 2).blk t).view.emb y))
  refine (quantised_entry0 (iblk0 V c 0 t) y).trans ?_
  show Cert.Spec.fq (V c main_arg0 (((cfg0.win 0).blk t).view.emb y)) = _
  have h0 : ((cfg0.win 0).blk t).view.emb y = ((cfg0.win 2).blk t).view.emb y := by
    funext a; apply Fin.ext
    match a with
    | ⟨0, _⟩ => show win0_0.index t (0 : Fin 2) * 256 + 1 * (y 0).val = win0_2.index t (0 : Fin 2) * 256 + 1 * (y 0).val; omega
    | ⟨1, _⟩ => show win0_0.index t (1 : Fin 2) * 2048 + 1 * (y 1).val = win0_2.index t (1 : Fin 2) * 2048 + 1 * (y 1).val; omega
  rw [h0]

/-- Point t writes back to the recast hidden-state array block t of hx: the hx block and the output block sit at the
    same rows and columns, and the recast leaves each entry as it is. -/
theorem flushed_hq0 (c : Dev nD) (t : Fin cfg0.N) :
    (dat0 V c).flushed 3 t = ((cfg0.win 3).blk t).view.read (Elt Ideal) (V c main_arg1) := by
  show (cfg0.win 3).cut (grid0.coords t) ((dat0 V c).after 3 t) = _
  rw [after0_3]
  unfold out0_3
  rw [View.canon_unit_zero origin0]
  simp only [View.ld_unit_zero (S := S256x2048) origin0]
  obtain ⟨e0, e1, e2, e3, e4, e5, e6, e7⟩ := block_index0 t
  funext y
  show k0_pay2 (iblk0 V c 1 t) y = V c main_arg1 (((cfg0.win 3).blk t).view.emb y)
  refine (recast_entry0 (iblk0 V c 1 t) y).trans ?_
  show V c main_arg1 (((cfg0.win 1).blk t).view.emb y) = _
  have h1 : ((cfg0.win 1).blk t).view.emb y = ((cfg0.win 3).blk t).view.emb y := by
    funext a; apply Fin.ext
    match a with
    | ⟨0, _⟩ => show win0_1.index t (0 : Fin 2) * 256 + 1 * (y 0).val = win0_3.index t (0 : Fin 2) * 256 + 1 * (y 0).val; omega
    | ⟨1, _⟩ => show win0_1.index t (1 : Fin 2) * 2048 + 1 * (y 1).val = win0_3.index t (1 : Fin 2) * 2048 + 1 * (y 1).val; omega
  rw [h1]

/-! ## The four blocks cover the 1024 rows -/

/-- An entry of the quantised-input array is in point t's block iff, on each axis, its coordinate lies in the block's
    range: block index times block size, and one block size further. -/
theorem mem_blk_xq0 (t : Fin cfg0.N) (i : S1024x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0_0).slice (win0_2.rect t)).set ↔ _
  rw [View.set_slice_whole, Rect.mem_set_unit]
  exact Iff.rfl

/-- The same for the recast hidden-state array. -/
theorem mem_blk_hq0 (t : Fin cfg0.N) (i : S1024x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v0_1).slice (win0_3.rect t)).set ↔ _
  rw [View.set_slice_whole, Rect.mem_set_unit]
  exact Iff.rfl

/-- Row r of the quantised-input array is written back by point r / 256: 256 (r / 256) ≤ r < 256 (r / 256) + 256, and
    r < 1024 puts the quotient among the four points; every column is in every block. -/
theorem cover_xq0 (i : S1024x2048.Idx) :
    ∃ t : Fin cfg0.N, (cfg0.win 2).flush t = true ∧ i ∈ ((cfg0.win 2).blk t).view.set := by
  have hi0 : (i 0).val < 1024 := (i 0).isLt
  have hi1 : (i 1).val < 2048 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, e4, e5, -, -⟩ := block_index0 t
  refine ⟨t, flush0_2 t, ?_⟩
  rw [mem_blk_xq0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The same for the recast hidden-state array. -/
theorem cover_hq0 (i : S1024x2048.Idx) :
    ∃ t : Fin cfg0.N, (cfg0.win 3).flush t = true ∧ i ∈ ((cfg0.win 3).blk t).view.set := by
  have hi0 : (i 0).val < 1024 := (i 0).isLt
  have hi1 : (i 1).val < 2048 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, e6, e7⟩ := block_index0 t
  refine ⟨t, flush0_3 t, ?_⟩
  rw [mem_blk_hq0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-! ## The two arrays after the launch -/

/-- After the first launch the quantised-input array is the quantiser applied entrywise to x. -/
theorem arr0_xq (c : Dev nD) : (dat0 V c).arrAt 2 cfg0.N = Cert.Spec.xqOf (V c main_arg0) := by
  exact (dat0 V c).arrAt_eq_of_cover 2 (Cert.Spec.xqOf (V c main_arg0)) (fun t _ => flushed_xq0 V c t) cover_xq0

/-- After the first launch the recast hidden-state array is hx, entry by entry. -/
theorem arr0_hq (c : Dev nD) : (dat0 V c).arrAt 3 cfg0.N = V c main_arg1 := by
  exact (dat0 V c).arrAt_eq_of_cover 3 (V c main_arg1) (fun t _ => flushed_hq0 V c t) cover_hq0

end Cert.KernelIdeal.Stages

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.KernelIdeal.Val1Pay.lean ====
/-
  The second launch's body arithmetic read at one entry, on the extended reals.

  The body quantises the two 256 x 2048 weight blocks entrywise, multiplies the 1024 x 2048 activations by them (each
  row of an activation against each row of a weight block, a sum over the 2048 contraction indices, into a zero
  accumulator), adds the two products, adds the two bias rows broadcast over the 1024 batch rows, applies the gate's
  activation and quantises.  On the extended reals a recast between float formats is the identity and the named step
  constant is 1/127, so at entry (b, j) the result is the specification's quantiser of the activation of
  (sum_k xq(b,k) fq(wx(j,k)) + sum_k hq(b,k) fq(wh(j,k))) + bx(j) + bh(j).
-/
import proofs.«415429_j49383533969518_3_alg».proof.Proof.Gen.KernelIdeal.Skeleton
import proofs.«415429_j49383533969518_3_alg».proof.Proof.KernelIdeal.Consts
import proofs.«415429_j49383533969518_3_alg».proof.Proof.Spec
import proofs.«415429_j49383533969518_3_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Cert.KernelIdeal Cert.KernelIdeal.Gen
open Idealize.ShloMosaic Idealize.ShloMosaic.TcCoe Idealize.ShloMosaic.ValueIdx

/-- The quantiser on the extended reals, step by step: scale by 127, bound below by -127 and above by 127, round to
    the nearest integer (ties to even), scale by the step 1/127.  This is the specification's quantiser, by unfolding. -/
theorem fq_steps (x : EReal) :
    Ideal.liftRound Ideal.roundHalfEven
        (min (Ideal.ofBits .f32 0x42FE0000#32) (max (Ideal.ofBits .f32 0xC2FE0000#32) (x * Ideal.ofBits .f32 0x42FE0000#32)))
      * Cert.Spec.inv127 = Cert.Spec.fq x := rfl

/-- The body's quantiser applied entrywise to an array, read at one index: the five pointwise operations and the named
    step (which denotes 1/127) give the specification's quantiser of the entry. -/
theorem quant_apply {s : Shape} (v : FVec Ideal s .f32) (i : s.Idx) :
    mulf (roundeven (minimumf (broadcast s (Scalar.ofBits (F := Ideal) .f32 0x42FE0000#32))
        (maximumf (broadcast s (Scalar.ofBits (F := Ideal) .f32 0xC2FE0000#32))
          (mulf v (broadcast s (Scalar.ofBits (F := Ideal) .f32 0x42FE0000#32))))))
      (broadcast s (Named.named (F := Ideal) κ "inv_127" (φ := .f32) 0x3C010204#32)) i
      = Cert.Spec.fq (v i) := by
  show Ideal.liftRound Ideal.roundHalfEven
        (min (Ideal.ofBits .f32 0x42FE0000#32) (max (Ideal.ofBits .f32 0xC2FE0000#32) (v i * Ideal.ofBits .f32 0x42FE0000#32)))
      * Named.named (F := Ideal) κ "inv_127" (φ := .f32) 0x3C010204#32 = _
  rw [inv127_named]
  rfl

/-- A 1 x 256 row flattened to 256 entries, recast as a 1 x 256 row and repeated over the 1024 batch rows reads, at
    (b, j), the row's entry (0, j): both recasts keep the row-major position j, and the repetition ignores b. -/
theorem row_apply (v : Vec Ideal S1x256 .f32) (h1 : S1x256.ShapeCasts S256) (h2 : S256.ShapeCasts S1x256)
    (h3 : S1x256.Broadcasts S1024x256) (b : Fin 1024) (j : Fin 256) :
    broadcastTo S1024x256 (shapeCast S1x256 (shapeCast S256 v h1) h2) h3 (ix2 b j) = v (ix2 (0 : Fin 1) j) :=
  (broadcastTo_1b_ab_apply _ h3 b j).trans ((shapeCast_a_1a_apply _ h2 (0 : Fin 1) j).trans (shapeCast_1a_a_apply v h1 j))

/-- A quantised weight block as the product's right operand: the 1 x 256 x 2048 block read as 256 x 2048, quantised
    entrywise and recast to bf16 (the identity on the extended reals), at (j, k) is the quantiser of the block's
    entry (0, j, k). -/
theorem wq_apply (w : Vec Ideal S1x256x2048 .f32) (h : S1x256x2048.ShapeCasts S256x2048) (hb : FTy.bits .bf16 < FTy.bits .f32)
    (j : Fin 256) (k : Fin 2048) :
    truncf .bf16 (mulf (roundeven (minimumf (broadcast S256x2048 (Scalar.ofBits (F := Ideal) .f32 0x42FE0000#32))
        (maximumf (broadcast S256x2048 (Scalar.ofBits (F := Ideal) .f32 0xC2FE0000#32))
          (mulf (shapeCast S256x2048 w h) (broadcast S256x2048 (Scalar.ofBits (F := Ideal) .f32 0x42FE0000#32))))))
      (broadcast S256x2048 (Named.named (F := Ideal) κ "inv_127" (φ := .f32) 0x3C010204#32))) hb (ix2 j k)
      = Cert.Spec.fq (w (ix3 (0 : Fin 1) j k)) :=
  (quant_apply (shapeCast S256x2048 w h) (ix2 j k)).trans (congrArg Cert.Spec.fq (shapeCast_1ab_ab_apply w h j k))

/-- The two products, added: at (b, j) the sum over k of the first activation's (b, k) times the quantised first
    weight's (0, j, k), plus the same for the second pair. -/
theorem pay4_apply (v0 v2 : Vec Ideal S1x256x2048 .f32) (v24 v27 : Vec Ideal S1024x2048 .bf16) (b : Fin 1024) (j : Fin 256) :
    k1_pay4 (F := Ideal) v0 v2 v24 v27 (ix2 b j)
      = (∑ k : Fin 2048, v24 (ix2 b k) * Cert.Spec.fq (v0 (ix3 (0 : Fin 1) j k)))
        + (∑ k : Fin 2048, v27 (ix2 b k) * Cert.Spec.fq (v2 (ix3 (0 : Fin 1) j k))) := by
  unfold k1_pay4
  refine congrArg₂ (· + ·) ?_ ?_
  · refine (Cert.LibTransposedRhs.matmul_transposedRhs_zero_any 1024 2048 256 _ _ b j).trans ?_
    refine Finset.sum_congr rfl fun k _ => ?_
    exact congrArg₂ (· * ·) (congrFun (shapeCast_self v24 _) (ix2 b k)) (wq_apply v0 _ _ j k)
  · refine (Cert.LibTransposedRhs.matmul_transposedRhs_zero_any 1024 2048 256 _ _ b j).trans ?_
    refine Finset.sum_congr rfl fun k _ => ?_
    exact congrArg₂ (· * ·) (congrFun (shapeCast_self v27 _) (ix2 b k)) (wq_apply v2 _ _ j k)

/-- The pre-activation: the products' sum plus the first bias row's entry j plus the second's. -/
theorem pay1_apply (v30 : FVec Ideal S1024x256 .f32) (v32 v35 : Vec Ideal S1x256 .f32) (b : Fin 1024) (j : Fin 256) :
    k1_pay1 (F := Ideal) v30 (k1_pay5 (F := Ideal) v32) v35 (ix2 b j)
      = v30 (ix2 b j) + v32 (ix2 (0 : Fin 1) j) + v35 (ix2 (0 : Fin 1) j) := by
  unfold k1_pay1 k1_pay5
  exact congrArg₂ (· + ·) (congrArg (v30 (ix2 b j) + ·) (row_apply v32 _ _ _ b j)) (row_apply v35 _ _ _ b j)

/-- The store under "gate is not 2": the quantised logistic function of the pre-activation. -/
theorem pay2_apply (v30 : FVec Ideal S1024x256 .f32) (v32 v35 : Vec Ideal S1x256 .f32) (b : Fin 1024) (j : Fin 256) :
    k1_pay2 (F := Ideal) v30 (k1_pay5 (F := Ideal) v32) v35 (ix3 (0 : Fin 1) b j)
      = Cert.Spec.fq (Ideal.logistic (v30 (ix2 b j) + v32 (ix2 (0 : Fin 1) j) + v35 (ix2 (0 : Fin 1) j))) := by
  unfold k1_pay2
  refine (shapeCast_ab_1ab_apply _ _ (0 : Fin 1) b j).trans ?_
  refine (quant_apply _ (ix2 b j)).trans ?_
  exact congrArg (fun t => Cert.Spec.fq (Ideal.logistic t)) (pay1_apply v30 v32 v35 b j)

/-- The store under "gate is 2": the quantised hyperbolic tangent of the pre-activation. -/
theorem pay3_apply (v30 : FVec Ideal S1024x256 .f32) (v32 v35 : Vec Ideal S1x256 .f32) (b : Fin 1024) (j : Fin 256) :
    k1_pay3 (F := Ideal) v30 (k1_pay5 (F := Ideal) v32) v35 (ix3 (0 : Fin 1) b j)
      = Cert.Spec.fq (Ideal.tanh (v30 (ix2 b j) + v32 (ix2 (0 : Fin 1) j) + v35 (ix2 (0 : Fin 1) j))) := by
  unfold k1_pay3
  refine (shapeCast_ab_1ab_apply _ _ (0 : Fin 1) b j).trans ?_
  refine (quant_apply _ (ix2 b j)).trans ?_
  exact congrArg (fun t => Cert.Spec.fq (Ideal.tanh t)) (pay1_apply v30 v32 v35 b j)

end Cert.KernelIdeal.Stages

end
-- ==== Proof.KernelIdeal.Val1.lean ====
/-
  What the second launch leaves in the gates array, on the extended reals.

  Grid point (g, n) writes back the block of gate g, all 1024 batch rows, columns [256 n, 256 n + 256); the 32 points
  cover the 4 x 1024 x 2048 array.  At entry (g, b, j) the written value is the quantised activation of gate g (the
  hyperbolic tangent for g = 2, the logistic function otherwise) at the pre-activation: row b of the quantised input
  against row j of gate g's quantised input weights (a sum over the 2048 contraction indices), plus row b of the
  hidden state against row j of gate g's quantised hidden weights, plus the two biases of (g, j).  The products are
  the matrix unit's into a zero accumulator, read entry by entry as sums on the extended reals; the weight rows of the
  block at a point are rows [256 n, 256 n + 256) of gate g's slab, and the bias entries are row g of the bias blocks.
-/
import proofs.«415429_j49383533969518_3_alg».proof.Proof.KernelIdeal.Region1
import proofs.«415429_j49383533969518_3_alg».proof.Proof.KernelIdeal.Consts
import proofs.«415429_j49383533969518_3_alg».proof.Proof.KernelIdeal.Val1Pay
import proofs.«415429_j49383533969518_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«415429_j49383533969518_3_alg».proof.Proof.LibTransposedRhs
set_option maxRecDepth 16384

noncomputable section

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's payload at one entry -/

/-- The zero offsets of a rank-2 whole-block access, however spelt. -/
theorem hz2_1 : (![0, 0] : Fin 2 → Nat) = fun _ => 0 := funext fun a => by fin_cases a <;> rfl
/-- The zero offsets of a rank-3 whole-block access, however spelt. -/
theorem hz3_1 : (![0, 0, 0] : Fin 3 → Nat) = fun _ => 0 := funext fun a => by fin_cases a <;> rfl

/-- The 32-bit word of a gate number below 4, read back as an index, is the number. -/
theorem gateWord1 : ∀ a : Fin 4, (Scalar.indexCast (BitVec.ofNat 32 a.val)).toNat = a.val := by decide

/-- The bias row's offsets at a point: the gate coordinate on the first axis, zero on the second. -/
theorem off_eq1 (i : grid1.Coords) : k1_off1 i = ![(i 0).val, 0] := by
  unfold k1_off1
  dsimp only
  rw [gateWord1 (i 0)]

/-- The bias row the body loads, at column j, is row g of the 4 x 256 bias block, g the point's gate coordinate. -/
theorem ld_bias_row1 (i : grid1.Coords) (g : Fin 4) (hg : (i 0).val = g.val) (x : Vec Ideal S4x256 .f32) (j : Fin 256) :
    View.ld x (r1b i) (ix2 (0 : Fin 1) j) = x (ix2 g j) := by
  show x ((r1b i).idx (ix2 (0 : Fin 1) j)) = x (ix2 g j)
  refine congrArg x (funext fun a => Fin.ext ?_)
  match a with
  | ⟨0, _⟩ =>
    show k1_off1 i 0 + 1 * 0 = g.val
    rw [off_eq1]; show (i 0).val + 1 * 0 = g.val; omega
  | ⟨1, _⟩ =>
    show k1_off1 i 1 + 1 * j.val = j.val
    rw [off_eq1]; show 0 + 1 * j.val = j.val; omega

/-- The stored payload at entry (0, b, j) of the output block, at a point whose gate coordinate is g: the quantised
    activation of gate g at the two products' sums over the contraction index plus row g of the two bias blocks. -/
theorem gate_pay_apply1 (i : grid1.Coords) (g : Fin 4) (hg : (i 0).val = g.val)
    (x0 x1 : Vec Ideal S1024x2048 .bf16) (x2 x3 : Vec Ideal S1x256x2048 .f32) (x4 x5 : Vec Ideal S4x256 .f32)
    (b : Fin 1024) (j : Fin 256) :
    pay1_6 (F := Ideal) i x0 x1 x2 x3 x4 x5 (ix3 (0 : Fin 1) b j)
      = Cert.Spec.fq (Cert.Spec.act g (((∑ k : Fin 2048, x0 (ix2 b k) * Cert.Spec.fq (x2 (ix3 (0 : Fin 1) j k)))
          + (∑ k : Fin 2048, x1 (ix2 b k) * Cert.Spec.fq (x3 (ix3 (0 : Fin 1) j k))))
          + x4 (ix2 g j) + x5 (ix2 g j))) := by
  unfold pay1_6 Cert.Spec.act
  simp only [View.ld_unit_zero (S := S1x256x2048) hz3_1, View.ld_unit_zero (S := S1024x2048) hz2_1]
  by_cases h2 : (i 0).val = 2
  · rw [if_pos h2, if_pos (hg ▸ h2)]
    refine (pay3_apply _ _ _ b j).trans ?_
    rw [pay4_apply, ld_bias_row1 i g hg, ld_bias_row1 i g hg]
  · rw [if_neg h2, if_neg (hg ▸ h2)]
    refine (pay2_apply _ _ _ b j).trans ?_
    rw [pay4_apply, ld_bias_row1 i g hg, ld_bias_row1 i g hg]

/-! ## The windows' blocks as parts of their arrays -/

/-- The windows' block indices at each of the 32 points, in terms of the point's coordinates (gate, column tile): both
    activations' is (0, 0); a weight block's is (gate, column tile, 0); a bias block's is (0, column tile); the output
    block's is (gate, 0, column tile). -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = (grid1.coords t 0).val ∧ win1_2.index t (1 : Fin 3) = (grid1.coords t 1).val ∧ win1_2.index t (2 : Fin 3) = 0
    ∧ win1_3.index t (0 : Fin 3) = (grid1.coords t 0).val ∧ win1_3.index t (1 : Fin 3) = (grid1.coords t 1).val ∧ win1_3.index t (2 : Fin 3) = 0
    ∧ win1_4.index t (0 : Fin 2) = 0 ∧ win1_4.index t (1 : Fin 2) = (grid1.coords t 1).val
    ∧ win1_5.index t (0 : Fin 2) = 0 ∧ win1_5.index t (1 : Fin 2) = (grid1.coords t 1).val
    ∧ win1_6.index t (0 : Fin 3) = (grid1.coords t 0).val ∧ win1_6.index t (1 : Fin 3) = 0 ∧ win1_6.index t (2 : Fin 3) = (grid1.coords t 1).val :=
  (by decide +kernel : ∀ t : Fin grid1.N, _)

/-- Every (gate, column tile) is the output block index of some point. -/
theorem idx_onto1 : ∀ (g : Fin 4) (n : Fin 8), ∃ t : Fin cfg1.N, win1_6.index t = ![g.val, 0, n.val] :=
  (by decide +kernel : ∀ (g : Fin 4) (n : Fin 8), ∃ t : Fin grid1.N, win1_6.index t = ![g.val, 0, n.val])

/-- Entry (0, b, j) of the output block at the point (g, n) is entry (g, b, 256 n + j) of the gates array. -/
theorem blk6_emb1 (t : Fin cfg1.N) (g : Fin 4) (n : Fin 8) (hg : (grid1.coords t 0).val = g.val) (hn : (grid1.coords t 1).val = n.val)
    (b : Fin 1024) (j : Fin 256) (col : Fin 2048) (hcol : col.val = 256 * n.val + j.val) :
    ((cfg1.win 6).blk t).view.emb (ix3 (0 : Fin 1) b j) = ix3 g b col := by
  obtain ⟨-, -, -, -, -, -, -, -, -, -, -, -, -, -, e0, e1, e2⟩ := idx_facts1 t
  funext a; apply Fin.ext
  match a with
  | ⟨0, _⟩ => show win1_6.index t (0 : Fin 3) * 1 + 1 * 0 = g.val; omega
  | ⟨1, _⟩ => show win1_6.index t (1 : Fin 3) * 1024 + 1 * b.val = b.val; omega
  | ⟨2, _⟩ => show win1_6.index t (2 : Fin 3) * 256 + 1 * j.val = col.val; omega

/-- The quantised-input block is the whole array at every point. -/
theorem iblk0_apply1 (c : Dev nD) (t : Fin cfg1.N) (b : Fin 1024) (k : Fin 2048) :
    iblk1 V c 0 t (ix2 b k) = V c main_v0_0 (ix2 b k) := by
  obtain ⟨e0, e1, -⟩ := idx_facts1 t
  show V c main_v0_0 (((cfg1.win 0).blk t).view.emb (ix2 b k)) = V c main_v0_0 (ix2 b k)
  refine congrArg (V c main_v0_0) (funext fun a => Fin.ext ?_)
  match a with
  | ⟨0, _⟩ => show win1_0.index t (0 : Fin 2) * 1024 + 1 * b.val = b.val; omega
  | ⟨1, _⟩ => show win1_0.index t (1 : Fin 2) * 2048 + 1 * k.val = k.val; omega

/-- The hidden-state block is the whole array at every point. -/
theorem iblk1_apply1 (c : Dev nD) (t : Fin cfg1.N) (b : Fin 1024) (k : Fin 2048) :
    iblk1 V c 1 t (ix2 b k) = V c main_v0_1 (ix2 b k) := by
  obtain ⟨-, -, e0, e1, -⟩ := idx_facts1 t
  show V c main_v0_1 (((cfg1.win 1).blk t).view.emb (ix2 b k)) = V c main_v0_1 (ix2 b k)
  refine congrArg (V c main_v0_1) (funext fun a => Fin.ext ?_)
  match a with
  | ⟨0, _⟩ => show win1_1.index t (0 : Fin 2) * 1024 + 1 * b.val = b.val; omega
  | ⟨1, _⟩ => show win1_1.index t (1 : Fin 2) * 2048 + 1 * k.val = k.val; omega

/-- Entry (0, j, k) of the input-weight block at the point (g, n) is entry (g, 256 n + j, k) of the input weights. -/
theorem iblk2_apply1 (c : Dev nD) (t : Fin cfg1.N) (g : Fin 4) (n : Fin 8) (hg : (grid1.coords t 0).val = g.val) (hn : (grid1.coords t 1).val = n.val)
    (j : Fin 256) (col : Fin 2048) (hcol : col.val = 256 * n.val + j.val) (k : Fin 2048) :
    iblk1 V c 2 t (ix3 (0 : Fin 1) j k) = V c main_v1 (ix3 g col k) := by
  obtain ⟨-, -, -, -, e0, e1, e2, -⟩ := idx_facts1 t
  show V c main_v1 (((cfg1.win 2).blk t).view.emb (ix3 (0 : Fin 1) j k)) = V c main_v1 (ix3 g col k)
  refine congrArg (V c main_v1) (funext fun a => Fin.ext ?_)
  match a with
  | ⟨0, _⟩ => show win1_2.index t (0 : Fin 3) * 1 + 1 * 0 = g.val; omega
  | ⟨1, _⟩ => show win1_2.index t (1 : Fin 3) * 256 + 1 * j.val = col.val; omega
  | ⟨2, _⟩ => show win1_2.index t (2 : Fin 3) * 2048 + 1 * k.val = k.val; omega

/-- Entry (0, j, k) of the hidden-weight block at the point (g, n) is entry (g, 256 n + j, k) of the hidden weights. -/
theorem iblk3_apply1 (c : Dev nD) (t : Fin cfg1.N) (g : Fin 4) (n : Fin 8) (hg : (grid1.coords t 0).val = g.val) (hn : (grid1.coords t 1).val = n.val)
    (j : Fin 256) (col : Fin 2048) (hcol : col.val = 256 * n.val + j.val) (k : Fin 2048) :
    iblk1 V c 3 t (ix3 (0 : Fin 1) j k) = V c main_v2 (ix3 g col k) := by
  obtain ⟨-, -, -, -, -, -, -, e0, e1, e2, -⟩ := idx_facts1 t
  show V c main_v2 (((cfg1.win 3).blk t).view.emb (ix3 (0 : Fin 1) j k)) = V c main_v2 (ix3 g col k)
  refine congrArg (V c main_v2) (funext fun a => Fin.ext ?_)
  match a with
  | ⟨0, _⟩ => show win1_3.index t (0 : Fin 3) * 1 + 1 * 0 = g.val; omega
  | ⟨1, _⟩ => show win1_3.index t (1 : Fin 3) * 256 + 1 * j.val = col.val; omega
  | ⟨2, _⟩ => show win1_3.index t (2 : Fin 3) * 2048 + 1 * k.val = k.val; omega

/-- Entry (g, j) of the first bias block at a point of column tile n is entry (g, 256 n + j) of the first bias array. -/
theorem iblk4_apply1 (c : Dev nD) (t : Fin cfg1.N) (g : Fin 4) (n : Fin 8) (hn : (grid1.coords t 1).val = n.val)
    (j : Fin 256) (col : Fin 2048) (hcol : col.val = 256 * n.val + j.val) :
    iblk1 V c 4 t (ix2 g j) = V c main_v3 (ix2 g col) := by
  obtain ⟨-, -, -, -, -, -, -, -, -, -, e0, e1, -⟩ := idx_facts1 t
  show V c main_v3 (((cfg1.win 4).blk t).view.emb (ix2 g j)) = V c main_v3 (ix2 g col)
  refine congrArg (V c main_v3) (funext fun a => Fin.ext ?_)
  match a with
  | ⟨0, _⟩ => show win1_4.index t (0 : Fin 2) * 4 + 1 * g.val = g.val; omega
  | ⟨1, _⟩ => show win1_4.index t (1 : Fin 2) * 256 + 1 * j.val = col.val; omega

/-- Entry (g, j) of the second bias block at a point of column tile n is entry (g, 256 n + j) of the second bias array. -/
theorem iblk5_apply1 (c : Dev nD) (t : Fin cfg1.N) (g : Fin 4) (n : Fin 8) (hn : (grid1.coords t 1).val = n.val)
    (j : Fin 256) (col : Fin 2048) (hcol : col.val = 256 * n.val + j.val) :
    iblk1 V c 5 t (ix2 g j) = V c main_v4 (ix2 g col) := by
  obtain ⟨-, -, -, -, -, -, -, -, -, -, -, -, e0, e1, -⟩ := idx_facts1 t
  show V c main_v4 (((cfg1.win 5).blk t).view.emb (ix2 g j)) = V c main_v4 (ix2 g col)
  refine congrArg (V c main_v4) (funext fun a => Fin.ext ?_)
  match a with
  | ⟨0, _⟩ => show win1_5.index t (0 : Fin 2) * 4 + 1 * g.val = g.val; omega
  | ⟨1, _⟩ => show win1_5.index t (1 : Fin 2) * 256 + 1 * j.val = col.val; omega

/-! ## What a point writes back, and the array the 32 points leave -/

/-- What point t writes back is its block of the specification's gates array. -/
theorem flushed_gate1 (c : Dev nD) (t : Fin cfg1.N) :
    (dat1 V c).flushed 6 t = ((cfg1.win 6).blk t).view.read (Elt Ideal)
      (Cert.Spec.gateOf (V c main_v0_0) (V c main_v0_1) (V c main_v1) (V c main_v2) (V c main_v3) (V c main_v4)) := by
  show (cfg1.win 6).cut (grid1.coords t) ((dat1 V c).after 6 t) = _
  rw [after1_6]
  unfold out1_6
  rw [View.canon_unit_zero hz3_1]
  obtain ⟨g, hg⟩ : ∃ g : Fin 4, (grid1.coords t 0).val = g.val := ⟨grid1.coords t 0, rfl⟩
  obtain ⟨n, hn⟩ : ∃ n : Fin 8, (grid1.coords t 1).val = n.val := ⟨grid1.coords t 1, rfl⟩
  funext y
  obtain ⟨p, b, j, rfl⟩ : ∃ (p : Fin 1) (b : Fin 1024) (j : Fin 256), y = ix3 p b j := ⟨y 0, y 1, y 2, eq_ix3 y⟩
  obtain rfl : p = 0 := Subsingleton.elim _ _
  have hcolLt : 256 * n.val + j.val < 2048 := by have := n.isLt; have := j.isLt; omega
  show pay1_6 (F := Ideal) (grid1.coords t) (iblk1 V c 0 t) (iblk1 V c 1 t) (iblk1 V c 2 t) (iblk1 V c 3 t) (iblk1 V c 4 t) (iblk1 V c 5 t) (ix3 (0 : Fin 1) b j)
    = Cert.Spec.gateOf (V c main_v0_0) (V c main_v0_1) (V c main_v1) (V c main_v2) (V c main_v3) (V c main_v4) (((cfg1.win 6).blk t).view.emb (ix3 (0 : Fin 1) b j))
  rw [blk6_emb1 t g n hg hn b j ⟨256 * n.val + j.val, hcolLt⟩ rfl]
  refine (gate_pay_apply1 (grid1.coords t) g hg (iblk1 V c 0 t) (iblk1 V c 1 t) (iblk1 V c 2 t) (iblk1 V c 3 t) (iblk1 V c 4 t) (iblk1 V c 5 t) b j).trans ?_
  have e0 : ∀ k : Fin 2048, iblk1 V c 0 t (ix2 b k) = V c main_v0_0 (ix2 b k) := iblk0_apply1 V c t b
  have e1 : ∀ k : Fin 2048, iblk1 V c 1 t (ix2 b k) = V c main_v0_1 (ix2 b k) := iblk1_apply1 V c t b
  have e2 : ∀ k : Fin 2048, iblk1 V c 2 t (ix3 (0 : Fin 1) j k) = V c main_v1 (ix3 g ⟨256 * n.val + j.val, hcolLt⟩ k) :=
    iblk2_apply1 V c t g n hg hn j ⟨256 * n.val + j.val, hcolLt⟩ rfl
  have e3 : ∀ k : Fin 2048, iblk1 V c 3 t (ix3 (0 : Fin 1) j k) = V c main_v2 (ix3 g ⟨256 * n.val + j.val, hcolLt⟩ k) :=
    iblk3_apply1 V c t g n hg hn j ⟨256 * n.val + j.val, hcolLt⟩ rfl
  have e4 : iblk1 V c 4 t (ix2 g j) = V c main_v3 (ix2 g ⟨256 * n.val + j.val, hcolLt⟩) :=
    iblk4_apply1 V c t g n hn j ⟨256 * n.val + j.val, hcolLt⟩ rfl
  have e5 : iblk1 V c 5 t (ix2 g j) = V c main_v4 (ix2 g ⟨256 * n.val + j.val, hcolLt⟩) :=
    iblk5_apply1 V c t g n hn j ⟨256 * n.val + j.val, hcolLt⟩ rfl
  simp only [e0, e1, e2, e3, e4, e5]
  rfl

/-- An index of the gates array is in point t's block iff each coordinate is in the block's range on its axis. -/
theorem mem_blk6_1 (t : Fin cfg1.N) (i : S4x1024x2048.Idx) :
    i ∈ ((cfg1.win 6).blk t).view.set ↔ ∀ a : Fin 3, win1_6.index t a * S1x1024x256.size a ≤ (i a).val ∧ (i a).val < win1_6.index t a * S1x1024x256.size a + S1x1024x256.size a := by
  show i ∈ ((View.whole main_v5).slice (win1_6.rect t)).set ↔ _
  rw [View.set_slice_whole, Rect.mem_set_unit]
  exact Iff.rfl

/-- Every entry (g, b, col) of the gates array is in the block of the point with coordinates (g, col / 256). -/
theorem covered6_1 (i : S4x1024x2048.Idx) :
    ∃ t : Fin cfg1.N, (cfg1.win 6).flush t = true ∧ i ∈ ((cfg1.win 6).blk t).view.set := by
  have hi0 : (i 0).val < 4 := (i 0).isLt
  have hi1 : (i 1).val < 1024 := (i 1).isLt
  have hi2 : (i 2).val < 2048 := (i 2).isLt
  obtain ⟨t, ht⟩ := idx_onto1 ⟨(i 0).val, hi0⟩ ⟨(i 2).val / 256, by omega⟩
  have q0 : win1_6.index t (0 : Fin 3) = (i 0).val := congrFun ht 0
  have q1 : win1_6.index t (1 : Fin 3) = 0 := congrFun ht 1
  have q2 : win1_6.index t (2 : Fin 3) = (i 2).val / 256 := congrFun ht 2
  refine ⟨t, flush1_6 t, ?_⟩
  rw [mem_blk6_1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 256 ≤ (i 2).val ∧ (i 2).val < win1_6.index t (2 : Fin 3) * 256 + 256; omega

/-- After the second launch the gates array is the specification's function of the six arrays the launch reads. -/
theorem arr1_gate (c : Dev nD) : (dat1 V c).arrAt 6 cfg1.N
    = Cert.Spec.gateOf (V c main_v0_0) (V c main_v0_1) (V c main_v1) (V c main_v2) (V c main_v3) (V c main_v4) :=
  (dat1 V c).arrAt_eq_of_cover 6
    (Cert.Spec.gateOf (V c main_v0_0) (V c main_v0_1) (V c main_v1) (V c main_v2) (V c main_v3) (V c main_v4))
    (fun t _ => flushed_gate1 V c t) covered6_1

end Cert.KernelIdeal.Stages

end
-- ==== Proof.KernelIdeal.Val2.lean ====
/-
  What the third launch leaves in its two output arrays, on the extended reals.

  Grid point t writes back rows [128 t, 128 t + 128) of each output; the eight points cover the 1024 rows.  At entry
  (b, j) the block written for the new hidden state is o * fq (tanh (f * c + i * g)) and the block written for the
  cell state is fq (f * c + i * g), where f, i, g, o are the entries (0, b, j) … (3, b, j) of the gates array and c the
  entry (b, j) of the cell state: the four slabs of the gates block at a point are rows [128 t, 128 t + 128) of the
  four gates.
-/
import proofs.«415429_j49383533969518_3_alg».proof.Proof.KernelIdeal.Region2
import proofs.«415429_j49383533969518_3_alg».proof.Proof.KernelIdeal.Consts
import proofs.«415429_j49383533969518_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's arithmetic at an entry -/

/-- The new cell state before quantising, at entry (p, q) of a block: f * c + i * g over the entries (0, p, q) of the
    three slabs and the entry (p, q) of the cell-state block; dropping a slab's unit axis reads the same entry. -/
theorem cnew_at2 (v0 v2 v4 : Vec Ideal S1x128x2048 .f32) (v8 : Vec Ideal S128x2048 .f32) (p : Fin 128) (q : Fin 2048) :
    k2_pay1 v0 v2 v4 v8 (ix2 p q)
      = v0 (ix3 (0 : Fin 1) p q) * v8 (ix2 p q) + v2 (ix3 (0 : Fin 1) p q) * v4 (ix3 (0 : Fin 1) p q) := by
  show shapeCast S128x2048 v0 shapeCasts_S1x128x2048_S128x2048 (ix2 p q) * v8 (ix2 p q)
      + shapeCast S128x2048 v2 shapeCasts_S1x128x2048_S128x2048 (ix2 p q)
        * shapeCast S128x2048 v4 shapeCasts_S1x128x2048_S128x2048 (ix2 p q) = _
  rw [shapeCast_1ab_ab_apply, shapeCast_1ab_ab_apply, shapeCast_1ab_ab_apply]

/-- The quantised new cell state at an entry: the quantiser applied to f * c + i * g. -/
theorem cq_at2 (v0 v2 v4 : Vec Ideal S1x128x2048 .f32) (v8 : Vec Ideal S128x2048 .f32) (p : Fin 128) (q : Fin 2048) :
    k2_pay3 v0 v2 v4 v8 (ix2 p q)
      = Cert.Spec.fq (v0 (ix3 (0 : Fin 1) p q) * v8 (ix2 p q) + v2 (ix3 (0 : Fin 1) p q) * v4 (ix3 (0 : Fin 1) p q)) := by
  rw [← cnew_at2]
  show Cert.Spec.rnd (Cert.Spec.clip127 (k2_pay1 v0 v2 v4 v8 (ix2 p q)))
      * Named.named (F := Ideal) Cert.KernelIdeal.κ "inv_127" (φ := .f32) 0x3C010204#32 = _
  rw [inv127_named]
  rfl

/-- The new hidden state at an entry: o times the quantised hyperbolic tangent of f * c + i * g. -/
theorem hnew_at2 (v0 v2 v4 v6 : Vec Ideal S1x128x2048 .f32) (v8 : Vec Ideal S128x2048 .f32) (p : Fin 128) (q : Fin 2048) :
    k2_pay2 v0 v2 v4 v6 v8 (ix2 p q)
      = v6 (ix3 (0 : Fin 1) p q)
        * Cert.Spec.fq (Ideal.tanh (v0 (ix3 (0 : Fin 1) p q) * v8 (ix2 p q) + v2 (ix3 (0 : Fin 1) p q) * v4 (ix3 (0 : Fin 1) p q))) := by
  rw [← cnew_at2]
  show shapeCast S128x2048 v6 shapeCasts_S1x128x2048_S128x2048 (ix2 p q)
      * (Cert.Spec.rnd (Cert.Spec.clip127 (Ideal.tanh (k2_pay1 v0 v2 v4 v8 (ix2 p q))))
        * Named.named (F := Ideal) Cert.KernelIdeal.κ "inv_127" (φ := .f32) 0x3C010204#32) = _
  rw [inv127_named, shapeCast_1ab_ab_apply]
  rfl

/-! ## The blocks at a grid point -/

theorem zero_off2 : (![0, 0] : Fin 2 → Nat) = fun _ => 0 := funext fun a => by fin_cases a <;> rfl

/-- The windows' index maps over the eight points: every window's row-block index is the point, every other block
    index zero. -/
theorem idx_facts2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point_lt2 (t : Fin cfg2.N) : t.val < 8 := lt_of_lt_of_eq t.isLt N_2

/-- Row p of point t's blocks is row 128 t + p of the arrays. -/
def rowOf2 (t : Fin cfg2.N) (p : Fin 128) : Fin 1024 := ⟨128 * t.val + p.val, by have := point_lt2 t; have := p.isLt; omega⟩

/-- Slab g of a gates block, at (0, p, q), is the block's entry (g, p, q). -/
theorem slab0_at2 (x0 : Vec Ideal S4x128x2048 .f32) (p : Fin 128) (q : Fin 2048) :
    View.ld x0 s2_0 (ix3 (0 : Fin 1) p q) = x0 (ix3 (0 : Fin 4) p q) := by
  show x0 (s2_0.idx (ix3 (0 : Fin 1) p q)) = _
  congr 1; funext a; apply Fin.ext
  match a with
  | ⟨0, _⟩ => rfl
  | ⟨1, _⟩ => show 0 + 1 * p.val = p.val; omega
  | ⟨2, _⟩ => show 0 + 1 * q.val = q.val; omega
theorem slab1_at2 (x0 : Vec Ideal S4x128x2048 .f32) (p : Fin 128) (q : Fin 2048) :
    View.ld x0 s2_1 (ix3 (0 : Fin 1) p q) = x0 (ix3 (1 : Fin 4) p q) := by
  show x0 (s2_1.idx (ix3 (0 : Fin 1) p q)) = _
  congr 1; funext a; apply Fin.ext
  match a with
  | ⟨0, _⟩ => rfl
  | ⟨1, _⟩ => show 0 + 1 * p.val = p.val; omega
  | ⟨2, _⟩ => show 0 + 1 * q.val = q.val; omega
theorem slab2_at2 (x0 : Vec Ideal S4x128x2048 .f32) (p : Fin 128) (q : Fin 2048) :
    View.ld x0 s2_2 (ix3 (0 : Fin 1) p q) = x0 (ix3 (2 : Fin 4) p q) := by
  show x0 (s2_2.idx (ix3 (0 : Fin 1) p q)) = _
  congr 1; funext a; apply Fin.ext
  match a with
  | ⟨0, _⟩ => rfl
  | ⟨1, _⟩ => show 0 + 1 * p.val = p.val; omega
  | ⟨2, _⟩ => show 0 + 1 * q.val = q.val; omega
theorem slab3_at2 (x0 : Vec Ideal S4x128x2048 .f32) (p : Fin 128) (q : Fin 2048) :
    View.ld x0 s2_3 (ix3 (0 : Fin 1) p q) = x0 (ix3 (3 : Fin 4) p q) := by
  show x0 (s2_3.idx (ix3 (0 : Fin 1) p q)) = _
  congr 1; funext a; apply Fin.ext
  match a with
  | ⟨0, _⟩ => rfl
  | ⟨1, _⟩ => show 0 + 1 * p.val = p.val; omega
  | ⟨2, _⟩ => show 0 + 1 * q.val = q.val; omega

/-- The new hidden state written at entry (p, q) of a block whose gates block and cell-state block hold, there, the
    arrays' entries of row b, is the specification's new hidden state at (b, q). -/
theorem h_entry2 (x0 : Vec Ideal S4x128x2048 .f32) (x1 : Vec Ideal S128x2048 .f32)
    (go : Cert.Spec.A3 4 1024 2048) (cx : Cert.Spec.A2 1024 2048) (p : Fin 128) (q : Fin 2048) (b : Fin 1024)
    (hg : ∀ g : Fin 4, x0 (ix3 g p q) = go (ix3 g b q)) (hc : x1 (ix2 p q) = cx (ix2 b q)) :
    k2_pay2 (View.ld x0 s2_0) (View.ld x0 s2_1) (View.ld x0 s2_2) (View.ld x0 s2_3) x1 (ix2 p q)
      = Cert.Spec.hOf go cx (ix2 b q) := by
  refine (hnew_at2 _ _ _ _ _ p q).trans ?_
  rw [slab0_at2, slab1_at2, slab2_at2, slab3_at2, hg 0, hg 1, hg 2, hg 3, hc]
  rfl

/-- The same for the quantised new cell state. -/
theorem c_entry2 (x0 : Vec Ideal S4x128x2048 .f32) (x1 : Vec Ideal S128x2048 .f32)
    (go : Cert.Spec.A3 4 1024 2048) (cx : Cert.Spec.A2 1024 2048) (p : Fin 128) (q : Fin 2048) (b : Fin 1024)
    (hg : ∀ g : Fin 4, x0 (ix3 g p q) = go (ix3 g b q)) (hc : x1 (ix2 p q) = cx (ix2 b q)) :
    k2_pay3 (View.ld x0 s2_0) (View.ld x0 s2_1) (View.ld x0 s2_2) x1 (ix2 p q)
      = Cert.Spec.cOf go cx (ix2 b q) := by
  refine (cq_at2 _ _ _ _ p q).trans ?_
  rw [slab0_at2, slab1_at2, slab2_at2, hg 0, hg 1, hg 2, hc]
  rfl

/-- Entry (g, p, q) of point t's gates block is entry (g, 128 t + p, q) of the gates array. -/
theorem gates_blk2 (c : Dev nD) (t : Fin cfg2.N) (g : Fin 4) (p : Fin 128) (q : Fin 2048) :
    (iblk2 V c 0 t : Vec Ideal S4x128x2048 .f32) (ix3 g p q)
      = (V c main_v5 : Cert.Spec.A3 4 1024 2048) (ix3 g (rowOf2 t p) q) := by
  obtain ⟨e0, e1, e2, -⟩ := idx_facts2 t
  unfold iblk2
  rw [View.read_apply]
  show V c main_v5 _ = V c main_v5 _
  congr 1
  funext a; apply Fin.ext
  match a with
  | ⟨0, _⟩ => show win2_0.index t (0 : Fin 3) * 4 + 1 * g.val = g.val; rw [e0]; omega
  | ⟨1, _⟩ => show win2_0.index t (1 : Fin 3) * 128 + 1 * p.val = 128 * t.val + p.val; rw [e1]; omega
  | ⟨2, _⟩ => show win2_0.index t (2 : Fin 3) * 2048 + 1 * q.val = q.val; rw [e2]; omega

/-- Entry (p, q) of point t's cell-state block is entry (128 t + p, q) of the cell state. -/
theorem cell_blk2 (c : Dev nD) (t : Fin cfg2.N) (p : Fin 128) (q : Fin 2048) :
    (iblk2 V c 1 t : Vec Ideal S128x2048 .f32) (ix2 p q)
      = (V c main_arg2 : Cert.Spec.A2 1024 2048) (ix2 (rowOf2 t p) q) := by
  obtain ⟨-, -, -, e0, e1, -⟩ := idx_facts2 t
  unfold iblk2
  rw [View.read_apply]
  show V c main_arg2 _ = V c main_arg2 _
  congr 1
  funext a; apply Fin.ext
  match a with
  | ⟨0, _⟩ => show win2_1.index t (0 : Fin 2) * 128 + 1 * p.val = 128 * t.val + p.val; rw [e0]; omega
  | ⟨1, _⟩ => show win2_1.index t (1 : Fin 2) * 2048 + 1 * q.val = q.val; rw [e1]; omega

/-- Entry (p, q) of an output's block at point t sits at (128 t + p, q) of its array. -/
theorem out_emb2_2 (t : Fin cfg2.N) (p : Fin 128) (q : Fin 2048) :
    ((cfg2.win 2).blk t).view.emb (ix2 p q) = (ix2 (rowOf2 t p) q : S1024x2048.Idx) := by
  obtain ⟨-, -, -, -, -, e0, e1, -⟩ := idx_facts2 t
  funext a; apply Fin.ext
  match a with
  | ⟨0, _⟩ => show win2_2.index t (0 : Fin 2) * 128 + 1 * p.val = 128 * t.val + p.val; rw [e0]; omega
  | ⟨1, _⟩ => show win2_2.index t (1 : Fin 2) * 2048 + 1 * q.val = q.val; rw [e1]; omega
theorem out_emb2_3 (t : Fin cfg2.N) (p : Fin 128) (q : Fin 2048) :
    ((cfg2.win 3).blk t).view.emb (ix2 p q) = (ix2 (rowOf2 t p) q : S1024x2048.Idx) := by
  obtain ⟨-, -, -, -, -, -, -, e0, e1⟩ := idx_facts2 t
  funext a; apply Fin.ext
  match a with
  | ⟨0, _⟩ => show win2_3.index t (0 : Fin 2) * 128 + 1 * p.val = 128 * t.val + p.val; rw [e0]; omega
  | ⟨1, _⟩ => show win2_3.index t (1 : Fin 2) * 2048 + 1 * q.val = q.val; rw [e1]; omega

/-! ## What each point writes back -/

/-- Point t writes back block t of the specification's new hidden state. -/
theorem flushed_eq2_2 (c : Dev nD) (t : Fin cfg2.N) :
    (dat2 V c).flushed 2 t = ((cfg2.win 2).blk t).view.read (Elt Ideal) (Cert.Spec.hOf (V c main_v5) (V c main_arg2)) := by
  show (cfg2.win 2).cut (grid2.coords t) ((dat2 V c).after 2 t) = _
  rw [after2_2]
  unfold out2_2
  rw [View.canon_unit_zero zero_off2]
  simp only [View.ld_unit_zero (S := S128x2048) zero_off2]
  funext y
  obtain ⟨p, q, rfl⟩ : ∃ (p : Fin 128) (q : Fin 2048), y = ix2 p q := ⟨y 0, y 1, eq_ix2 y⟩
  show k2_pay2 (View.ld (iblk2 V c 0 t) s2_0) (View.ld (iblk2 V c 0 t) s2_1) (View.ld (iblk2 V c 0 t) s2_2)
        (View.ld (iblk2 V c 0 t) s2_3) (iblk2 V c 1 t) (ix2 p q)
      = Cert.Spec.hOf (V c main_v5) (V c main_arg2) (((cfg2.win 2).blk t).view.emb (ix2 p q))
  rw [out_emb2_2]
  exact h_entry2 (iblk2 V c 0 t) (iblk2 V c 1 t) (V c main_v5) (V c main_arg2) p q (rowOf2 t p)
    (fun g => gates_blk2 V c t g p q) (cell_blk2 V c t p q)

/-- Point t writes back block t of the specification's quantised new cell state. -/
theorem flushed_eq2_3 (c : Dev nD) (t : Fin cfg2.N) :
    (dat2 V c).flushed 3 t = ((cfg2.win 3).blk t).view.read (Elt Ideal) (Cert.Spec.cOf (V c main_v5) (V c main_arg2)) := by
  show (cfg2.win 3).cut (grid2.coords t) ((dat2 V c).after 3 t) = _
  rw [after2_3]
  unfold out2_3
  rw [View.canon_unit_zero zero_off2]
  simp only [View.ld_unit_zero (S := S128x2048) zero_off2]
  funext y
  obtain ⟨p, q, rfl⟩ : ∃ (p : Fin 128) (q : Fin 2048), y = ix2 p q := ⟨y 0, y 1, eq_ix2 y⟩
  show k2_pay3 (View.ld (iblk2 V c 0 t) s2_0) (View.ld (iblk2 V c 0 t) s2_1) (View.ld (iblk2 V c 0 t) s2_2)
        (iblk2 V c 1 t) (ix2 p q)
      = Cert.Spec.cOf (V c main_v5) (V c main_arg2) (((cfg2.win 3).blk t).view.emb (ix2 p q))
  rw [out_emb2_3]
  exact c_entry2 (iblk2 V c 0 t) (iblk2 V c 1 t) (V c main_v5) (V c main_arg2) p q (rowOf2 t p)
    (fun g => gates_blk2 V c t g p q) (cell_blk2 V c t p q)

/-! ## The eight blocks cover the rows -/

/-- An index of an output array is in point t's block iff each coordinate is in the block's range on its axis. -/
theorem mem_blk2_2 (t : Fin cfg2.N) (i : S1024x2048.Idx) :
    i ∈ ((cfg2.win 2).blk t).view.set ↔ ∀ a : Fin 2, win2_2.index t a * S128x2048.size a ≤ (i a).val ∧ (i a).val < win2_2.index t a * S128x2048.size a + S128x2048.size a := by
  show i ∈ ((View.whole main_v6_0).slice (win2_2.rect t)).set ↔ _
  rw [View.set_slice_whole, Rect.mem_set_unit]
  exact Iff.rfl
theorem mem_blk2_3 (t : Fin cfg2.N) (i : S1024x2048.Idx) :
    i ∈ ((cfg2.win 3).blk t).view.set ↔ ∀ a : Fin 2, win2_3.index t a * S128x2048.size a ≤ (i a).val ∧ (i a).val < win2_3.index t a * S128x2048.size a + S128x2048.size a := by
  show i ∈ ((View.whole main_v6_1).slice (win2_3.rect t)).set ↔ _
  rw [View.set_slice_whole, Rect.mem_set_unit]
  exact Iff.rfl

/-- Row r lies in the block of point r / 128. -/
def pointOf2 (r : Fin 1024) : Fin cfg2.N := ⟨r.val / 128, by rw [show cfg2.N = 8 from N_2]; have := r.isLt; omega⟩

theorem covered2_2 (i : S1024x2048.Idx) :
    ∃ t : Fin cfg2.N, (cfg2.win 2).flush t = true ∧ i ∈ ((cfg2.win 2).blk t).view.set := by
  have hi0 : (i 0).val < 1024 := (i 0).isLt
  have hi1 : (i 1).val < 2048 := (i 1).isLt
  refine ⟨pointOf2 (i 0), flush2_2 _, ?_⟩
  obtain ⟨-, -, -, -, -, e0, e1, -⟩ := idx_facts2 (pointOf2 (i 0))
  rw [mem_blk2_2]
  intro a
  match a with
  | ⟨0, _⟩ =>
    show win2_2.index (pointOf2 (i 0)) (0 : Fin 2) * 128 ≤ (i 0).val ∧ (i 0).val < win2_2.index (pointOf2 (i 0)) (0 : Fin 2) * 128 + 128
    rw [e0]; show (i 0).val / 128 * 128 ≤ (i 0).val ∧ (i 0).val < (i 0).val / 128 * 128 + 128; omega
  | ⟨1, _⟩ =>
    show win2_2.index (pointOf2 (i 0)) (1 : Fin 2) * 2048 ≤ (i 1).val ∧ (i 1).val < win2_2.index (pointOf2 (i 0)) (1 : Fin 2) * 2048 + 2048
    rw [e1]; omega

theorem covered2_3 (i : S1024x2048.Idx) :
    ∃ t : Fin cfg2.N, (cfg2.win 3).flush t = true ∧ i ∈ ((cfg2.win 3).blk t).view.set := by
  have hi0 : (i 0).val < 1024 := (i 0).isLt
  have hi1 : (i 1).val < 2048 := (i 1).isLt
  refine ⟨pointOf2 (i 0), flush2_3 _, ?_⟩
  obtain ⟨-, -, -, -, -, -, -, e0, e1⟩ := idx_facts2 (pointOf2 (i 0))
  rw [mem_blk2_3]
  intro a
  match a with
  | ⟨0, _⟩ =>
    show win2_3.index (pointOf2 (i 0)) (0 : Fin 2) * 128 ≤ (i 0).val ∧ (i 0).val < win2_3.index (pointOf2 (i 0)) (0 : Fin 2) * 128 + 128
    rw [e0]; show (i 0).val / 128 * 128 ≤ (i 0).val ∧ (i 0).val < (i 0).val / 128 * 128 + 128; omega
  | ⟨1, _⟩ =>
    show win2_3.index (pointOf2 (i 0)) (1 : Fin 2) * 2048 ≤ (i 1).val ∧ (i 1).val < win2_3.index (pointOf2 (i 0)) (1 : Fin 2) * 2048 + 2048
    rw [e1]; omega

/-- After the third launch the first result array is the new hidden state of the gates array and the cell state. -/
theorem arr2_h (c : Dev nD) : (dat2 V c).arrAt 2 cfg2.N = Cert.Spec.hOf (V c main_v5) (V c main_arg2) :=
  (dat2 V c).arrAt_eq_of_cover 2 (Cert.Spec.hOf (V c main_v5) (V c main_arg2)) (fun t _ => flushed_eq2_2 V c t) covered2_2

/-- After the third launch the second result array is the quantised new cell state. -/
theorem arr2_c (c : Dev nD) : (dat2 V c).arrAt 3 cfg2.N = Cert.Spec.cOf (V c main_v5) (V c main_arg2) :=
  (dat2 V c).arrAt_eq_of_cover 3 (Cert.Spec.cOf (V c main_v5) (V c main_arg2)) (fun t _ => flushed_eq2_3 V c t) covered2_3

end Cert.KernelIdeal.Stages

end
-- ==== Proof.KernelIdeal.Compose.lean ====
/-
  The two results of the quantised LSTM cell's program as the specification's functions of the seven arguments, on the
  extended reals.

  The run leaves every unscoped buffer at the last contents of a fold through the program.  Read at the two results
  the fold gives what the third launch leaves in its output arrays: the new hidden state and the quantised new cell
  state of the gates array and the cell-state argument as that launch finds them.  The gates array it finds is what
  the second launch left: the specification's gates of the quantised input and the hidden state as the first launch
  left them, and of the weights and biases as the four reshapes left them.  A reshape of an [8192, 2048] matrix to
  [4, 2048, 2048] puts row g * 2048 + j at (g, j), and likewise for the bias vectors; the first launch left the
  quantiser of x and hx itself; no launch and no reshape writes an argument.  Composing, the results are the
  specification's new hidden state and new cell state of the arguments.
-/
import proofs.«415429_j49383533969518_3_alg».proof.Proof.KernelIdeal.Run
import proofs.«415429_j49383533969518_3_alg».proof.Proof.KernelIdeal.Val0
import proofs.«415429_j49383533969518_3_alg».proof.Proof.KernelIdeal.Val1
import proofs.«415429_j49383533969518_3_alg».proof.Proof.KernelIdeal.Val2
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## The reshapes read at an entry -/

/-- An [8192, 2048] matrix recast as [4, 2048, 2048] has at (g, j, k) the matrix's entry (g * 2048 + j, k). -/
theorem reshape_w (w : Cert.Spec.A2 8192 2048) :
    shapeCast S4x2048x2048 w shapeCasts_S8192x2048_S4x2048x2048 = Cert.Spec.w3Of w := by
  funext i
  obtain ⟨g, r, k, rfl⟩ : ∃ (g : Fin 4) (r : Fin 2048) (k : Fin 2048), i = ix3 g r k := ⟨i 0, i 1, i 2, eq_ix3 i⟩
  refine (shapeCast_apply w shapeCasts_S8192x2048_S4x2048x2048 (ix3 g r k) (ix2 (Cert.Spec.gcol g r) k) ?_).trans rfl
  rw [Shape.rowMajor_val_three, Shape.rowMajor_val_two]
  rfl

/-- An [8192] vector recast as [4, 2048] has at (g, j) the vector's entry g * 2048 + j. -/
theorem reshape_b (b : Cert.Spec.A1 8192) :
    shapeCast S4x2048 b shapeCasts_S8192_S4x2048 = Cert.Spec.b2Of b := by
  funext i
  obtain ⟨g, r, rfl⟩ : ∃ (g : Fin 4) (r : Fin 2048), i = ix2 g r := ⟨i 0, i 1, eq_ix2 i⟩
  refine (shapeCast_apply b shapeCasts_S8192_S4x2048 (ix2 g r) (ix1 (Cert.Spec.gcol g r)) ?_).trans rfl
  rw [Shape.rowMajor_val_two, Shape.rowMajor_val_one]
  rfl

variable (m : (ℓ : Loc nD τ sig) → Buf (Elt Ideal) ℓ)

/-! ## The fold read at the buffers the launches read -/

theorem W1_arg (c : Dev nD) (b : Ref sig .tc) (hb : ∀ w, Pipeline.arrRef spec0 w ≠ b) :
    W1 m c (Proc.devRef .tc b) = m ((c : Thread nD τ).loc b) := W1_of_ne m c b hb

/-- What the second launch finds in the quantised-input array: what the first launch left. -/
theorem V2_xq (c : Dev nD) : V2 m c main_v0_0 = Cert.Spec.xqOf (m ((c : Thread nD τ).loc main_arg0)) :=
  calc V2 m c main_v0_0
    _ = W1 m c (Proc.devRef .tc main_v0_0) := StableHlo.after_of_writes_sub hostOps1 _ hostOps1_writes (show main_v0_0 ∉ hostOps1_W by decide)
    _ = (dat0 (V0 m) c).arrAt 2 cfg0.N := W1_arr m c 2
    _ = Cert.Spec.xqOf (m ((c : Thread nD τ).loc main_arg0)) := arr0_xq (V0 m) c

/-- What it finds in the hidden-state array: hx. -/
theorem V2_hq (c : Dev nD) : V2 m c main_v0_1 = m ((c : Thread nD τ).loc main_arg1) :=
  calc V2 m c main_v0_1
    _ = W1 m c (Proc.devRef .tc main_v0_1) := StableHlo.after_of_writes_sub hostOps1 _ hostOps1_writes (show main_v0_1 ∉ hostOps1_W by decide)
    _ = (dat0 (V0 m) c).arrAt 3 cfg0.N := W1_arr m c 3
    _ = m ((c : Thread nD τ).loc main_arg1) := arr0_hq (V0 m) c

/-- What it finds in the reshaped weights and biases. -/
theorem V2_w1 (c : Dev nD) : V2 m c main_v1 = Cert.Spec.w3Of (m ((c : Thread nD τ).loc main_arg3)) := by
  have e : V2 m c main_v1 = shapeCast S4x2048x2048 (W1 m c (Proc.devRef .tc main_arg3)) shapeCasts_S8192x2048_S4x2048x2048 := by
    show StableHlo.after hostOps1 (W1 m c) (Proc.devRef .tc main_v1) = _
    after_results
    rfl
  rw [e, W1_arg m c main_arg3 (by decide)]
  exact reshape_w _
theorem V2_w2 (c : Dev nD) : V2 m c main_v2 = Cert.Spec.w3Of (m ((c : Thread nD τ).loc main_arg5)) := by
  have e : V2 m c main_v2 = shapeCast S4x2048x2048 (W1 m c (Proc.devRef .tc main_arg5)) shapeCasts_S8192x2048_S4x2048x2048 := by
    show StableHlo.after hostOps1 (W1 m c) (Proc.devRef .tc main_v2) = _
    after_results
    rfl
  rw [e, W1_arg m c main_arg5 (by decide)]
  exact reshape_w _
theorem V2_b1 (c : Dev nD) : V2 m c main_v3 = Cert.Spec.b2Of (m ((c : Thread nD τ).loc main_arg4)) := by
  have e : V2 m c main_v3 = shapeCast S4x2048 (W1 m c (Proc.devRef .tc main_arg4)) shapeCasts_S8192_S4x2048 := by
    show StableHlo.after hostOps1 (W1 m c) (Proc.devRef .tc main_v3) = _
    after_results
    rfl
  rw [e, W1_arg m c main_arg4 (by decide)]
  exact reshape_b _
theorem V2_b2 (c : Dev nD) : V2 m c main_v4 = Cert.Spec.b2Of (m ((c : Thread nD τ).loc main_arg6)) := by
  have e : V2 m c main_v4 = shapeCast S4x2048 (W1 m c (Proc.devRef .tc main_arg6)) shapeCasts_S8192_S4x2048 := by
    show StableHlo.after hostOps1 (W1 m c) (Proc.devRef .tc main_v4) = _
    after_results
    rfl
  rw [e, W1_arg m c main_arg6 (by decide)]
  exact reshape_b _

/-- What the third launch finds in the gates array: the specification's gates of the arguments. -/
theorem V3_gates (c : Dev nD) : V3 m c main_v5
    = Cert.Spec.gatesOfArgs (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  have e : V3 m c main_v5 = (dat1 (V2 m) c).arrAt 6 cfg1.N := W3_arr m c 6
  rw [e, arr1_gate (V2 m) c, V2_xq, V2_hq, V2_w1, V2_w2, V2_b1, V2_b2]
  rfl

/-- What it finds in the cell-state argument: the launch contents. -/
theorem V3_cx (c : Dev nD) : V3 m c main_arg2 = m ((c : Thread nD τ).loc main_arg2) :=
  calc V3 m c main_arg2
    _ = W2 m c (Proc.devRef .tc main_arg2) := W3_of_ne m c main_arg2 (by decide)
    _ = W1 m c (Proc.devRef .tc main_arg2) := StableHlo.after_of_writes_sub hostOps1 _ hostOps1_writes (show main_arg2 ∉ hostOps1_W by decide)
    _ = m ((c : Thread nD τ).loc main_arg2) := W1_of_ne m c main_arg2 (by decide)

/-! ## The fold read at the two results -/

/-- The first result: the specification's new hidden state of the arguments. -/
theorem W4_h (c : Dev nD) : W4 m c (Proc.devRef .tc main_v6_0)
    = Cert.Spec.hNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  have e : W4 m c (Proc.devRef .tc main_v6_0) = (dat2 (V3 m) c).arrAt 2 cfg2.N := W4_arr m c 2
  rw [e, arr2_h (V3 m) c, V3_gates, V3_cx]
  rfl

/-- The second result: the specification's quantised new cell state of the arguments. -/
theorem W4_c (c : Dev nD) : W4 m c (Proc.devRef .tc main_v6_1)
    = Cert.Spec.cOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  have e : W4 m c (Proc.devRef .tc main_v6_1) = (dat2 (V3 m) c).arrAt 3 cfg2.N := W4_arr m c 3
  rw [e, arr2_c (V3 m) c, V3_gates, V3_cx]
  rfl

end Cert.KernelIdeal.Stages

end
-- ==== Proof.RefRead.lean ====
/-
  The reference's run and its stages read at an index, brought in for the modules that compare it with the kernel.
-/
import proofs.«415429_j49383533969518_3_alg».proof.Proof.Gen.ReferenceIdeal.Run
import proofs.«415429_j49383533969518_3_alg».proof.Proof.Gen.ReferenceIdeal.Read
-- ==== Proof.SpecLaws.lean ====
/-
  Scalar laws on the extended reals that join two spellings of the fake quantiser and of the logistic function.

  The quantiser's clipped value lies between -127 and 127, so it is a real number whatever the argument is, the
  infinities included.  On a real q and an integer n, q + (n - q) = n, and division by 127 is the product with
  1/127; hence the spelling "clipped value plus (its rounding minus itself), divided by 127" is the quantiser.
  The logistic function is by definition 1 / (1 + exp (-x)).
-/
import proofs.«415429_j49383533969518_3_alg».proof.Proof.Spec
import Idealize.ShloMosaic.PureOps.Ideal
import Mathlib.Data.EReal.Basic
import Mathlib.Data.EReal.Operations
import Mathlib.Tactic.NormNum
import Mathlib.Tactic.Ring

noncomputable section

namespace Cert.Spec

open Idealize.ShloMosaic

/-- The reference's spelling of the fake quantiser: the clipped value plus (its rounding minus itself), divided by 127. -/
def fqRef (v : EReal) : EReal := Ideal.div (clip127 v + (rnd (clip127 v) - clip127 v)) c127

/-- 127.0's f32 pattern denotes 127. -/
theorem c127_eq : c127 = ((127 : ℝ) : EReal) := by
  simp [c127, Ideal.ofBits, Ideal.ieee, -EReal.coe_mul]; norm_num

/-- -127.0's f32 pattern denotes -127. -/
theorem cN127_eq : cN127 = ((-127 : ℝ) : EReal) := by
  simp [cN127, Ideal.ofBits, Ideal.ieee, -EReal.coe_mul]; norm_num

/-- The clipped value is a real number, whatever v is (the infinities included). -/
theorem clip127_real (v : EReal) : ∃ r : ℝ, clip127 v = (r : EReal) := by
  have hle : cN127 ≤ c127 := by
    rw [c127_eq, cN127_eq]; exact_mod_cast (by norm_num : (-127 : ℝ) ≤ 127)
  have hlo : cN127 ≤ clip127 v := le_min hle (le_max_left _ _)
  have hhi : clip127 v ≤ c127 := min_le_left _ _
  have hbot : clip127 v ≠ ⊥ := by
    intro h; rw [h, cN127_eq] at hlo
    exact EReal.coe_ne_bot _ (le_bot_iff.mp hlo)
  have htop : clip127 v ≠ ⊤ := by
    intro h; rw [h, c127_eq] at hhi
    exact EReal.coe_ne_top _ (top_le_iff.mp hhi)
  exact ⟨(clip127 v).toReal, (EReal.coe_toReal htop hbot).symm⟩

/-- The two spellings of the quantiser agree: on the real clipped value q and its rounding n, q + (n - q) = n, and
    dividing by 127 is multiplying by 1/127. -/
theorem fqRef_eq (v : EReal) : fqRef v = fq v := by
  obtain ⟨r, hr⟩ := clip127_real v
  unfold fqRef fq
  rw [hr, c127_eq, Ideal.div_coe (by norm_num : (127 : ℝ) ≠ 0)]
  have hn : rnd (r : EReal) = (((Ideal.roundHalfEven r : ℤ) : ℝ) : EReal) := rfl
  rw [hn, ← EReal.coe_sub, ← EReal.coe_add, add_sub_cancel]
  rfl

/-- The reference's spelling of the logistic function. -/
theorem logistic_spelled (v : EReal) : Ideal.div 1 (1 + Ideal.exp (-v)) = Ideal.logistic v := rfl

/-- 1.0's f32 pattern denotes 1. -/
theorem one_eq : Ideal.ofBits .f32 0x3F800000#32 = (1 : EReal) := by
  simp [Ideal.ofBits, Ideal.ieee, -EReal.coe_mul]; norm_num

end Cert.Spec

end
-- ==== Proof.RefSpec.lean ====
/-
  The reference computation of the quantised LSTM cell, read at an index, is the specification.

  The reference spells the fake quantiser as q + (round q - q), divided by 127, with q the value scaled by 127 and
  clipped to [-127, 127]; on the extended reals this is the specification's quantiser, since q is a real number.
  It spells the logistic function as 1 / (1 + exp (-v)), which is its definition.  It forms all four gates'
  pre-activations as one [1024, 8192] array, (x̂ · ŵxᵀ + bx) + h · ŵhᵀ + bh, and cuts it into four slices of 2048
  columns: column j of slice g is column g * 2048 + j.  The specification adds the two products first and the two
  biases after; addition on the extended reals is commutative and associative, so the two orders agree, with no
  finiteness needed.  Everything after the gates is the same expression on both sides:
  c' = f * c + i * g, h' = o * fq (tanh c'), and the returned cell state fq c'.
-/
import proofs.«415429_j49383533969518_3_alg».proof.Proof.RefRead
import proofs.«415429_j49383533969518_3_alg».proof.Proof.Spec
import proofs.«415429_j49383533969518_3_alg».proof.Proof.SpecLaws

noncomputable section

namespace Cert.RefSpec

open Cert.ReferenceIdeal Cert.ReferenceIdeal.Gen Cert.ReferenceIdeal.Read Idealize.ShloMosaic Idealize.ShloMosaic.ValueIdx

/-- The argument arrays' types: [1024, 2048] (x, hx, cx), [8192, 2048] (the weights), [8192] (the biases). -/
abbrev T2 : Type := (⟨S1024x2048, .f32⟩ : BufTy).Contents (Elt Ideal)
abbrev TW : Type := (⟨S8192x2048, .f32⟩ : BufTy).Contents (Elt Ideal)
abbrev TB : Type := (⟨S8192, .f32⟩ : BufTy).Contents (Elt Ideal)

/-- The reference's spelling of the quantiser on a scalar v, with 127 and -127 as their f32 patterns: with
    q = min 127 (max (-127) (v * 127)), the value (q + (round q - q)) / 127 is fq v. -/
theorem fq_spelled (v : EReal) :
    Ideal.div
      (min (Ideal.ofBits .f32 0x42FE0000#32) (max (Ideal.ofBits .f32 0xC2FE0000#32) (v * Ideal.ofBits .f32 0x42FE0000#32))
        + (Ideal.liftRound Ideal.roundHalfEven
            (min (Ideal.ofBits .f32 0x42FE0000#32) (max (Ideal.ofBits .f32 0xC2FE0000#32) (v * Ideal.ofBits .f32 0x42FE0000#32)))
          - min (Ideal.ofBits .f32 0x42FE0000#32) (max (Ideal.ofBits .f32 0xC2FE0000#32) (v * Ideal.ofBits .f32 0x42FE0000#32))))
      (Ideal.ofBits .f32 0x42FE0000#32) = Cert.Spec.fq v :=
  Cert.Spec.fqRef_eq v

/-- The quantised input: entry i depends on x at i alone. -/
theorem xq_eq (x0 : T2) (i : S1024x2048.Idx) : val_main_v7 (F := Ideal) x0 i = Cert.Spec.fq (x0 i) := by
  simp only [
    val_main_v7_apply, val_main_v6_apply, val_main_cst_2_apply, val_main_v5_apply, val_main_v4_apply,
    val_main_v2_apply, val_main_call0_v2_apply, val_main_v1_apply, val_main_v0_apply, val_main_cst_apply,
    val_main_call0_v1_apply, val_main_call0_v0_apply, val_main_cst_0_apply, val_main_call0_v4_apply,
    val_main_call0_v3_apply, val_main_cst_1_apply, val_main_v3_apply, Ideal.ofBits_def, Ideal.mulf_def,
    Ideal.maximumf_def, Ideal.minimumf_def, Ideal.hostUnary_roundeven_def, Ideal.subf_def, Ideal.addf_def,
    Ideal.hostDivf_def, fq_spelled]

/-- The quantised input weights: entry i depends on the input weights at i alone. -/
theorem wxq_eq (x3 : TW) (i : S8192x2048.Idx) : val_main_v15 (F := Ideal) x3 i = Cert.Spec.fq (x3 i) := by
  simp only [
    val_main_v15_apply, val_main_v14_apply, val_main_cst_6_apply, val_main_v13_apply, val_main_v12_apply,
    val_main_v10_apply, val_main_call2_v2_apply, val_main_v9_apply, val_main_v8_apply, val_main_cst_3_apply,
    val_main_call2_v1_apply, val_main_call2_v0_apply, val_main_cst_4_apply, val_main_call2_v4_apply,
    val_main_call2_v3_apply, val_main_cst_5_apply, val_main_v11_apply, Ideal.ofBits_def, Ideal.mulf_def,
    Ideal.maximumf_def, Ideal.minimumf_def, Ideal.hostUnary_roundeven_def, Ideal.subf_def, Ideal.addf_def,
    Ideal.hostDivf_def, fq_spelled]

/-- The quantised hidden weights: entry i depends on the hidden weights at i alone. -/
theorem whq_eq (x5 : TW) (i : S8192x2048.Idx) : val_main_v23 (F := Ideal) x5 i = Cert.Spec.fq (x5 i) := by
  simp only [
    val_main_v23_apply, val_main_v22_apply, val_main_cst_10_apply, val_main_v21_apply, val_main_v20_apply,
    val_main_v18_apply, val_main_call4_v2_apply, val_main_v17_apply, val_main_v16_apply, val_main_cst_7_apply,
    val_main_call4_v1_apply, val_main_call4_v0_apply, val_main_cst_8_apply, val_main_call4_v4_apply,
    val_main_call4_v3_apply, val_main_cst_9_apply, val_main_v19_apply, Ideal.ofBits_def, Ideal.mulf_def,
    Ideal.maximumf_def, Ideal.minimumf_def, Ideal.hostUnary_roundeven_def, Ideal.subf_def, Ideal.addf_def,
    Ideal.hostDivf_def, fq_spelled]

open Cert.Spec in
/-- The pre-activation at batch row b and column g * 2048 + j depends on row b of the quantised input and of the
    hidden state, on row g * 2048 + j of both quantised weight matrices and on entry g * 2048 + j of both biases.
    The reference adds the input product, the input bias, the hidden product and the hidden bias in that order;
    a + bx + c = a + c + bx on the extended reals moves the hidden product in front of the input bias. -/
theorem pre_eq (x0 x1 : T2) (x3 : TW) (x4 : TB) (x5 : TW) (x6 : TB) (g : Fin 4) (b : Fin 1024) (j : Fin 2048) :
    val_main_v32 (F := Ideal) x0 x1 x3 x4 x5 x6 (ix2 b (gcol g j))
      = preOf (xqOf x0) x1 (w3Of x3) (w3Of x5) (b2Of x4) (b2Of x6) g b j := by
  have hl (k : Fin 2048) : lidx_main_v24 (ix2 b (gcol g j)) k = ix2 b k :=
    funext fun a => Fin.ext (by match a with | ⟨0, _⟩ => rfl | ⟨1, _⟩ => rfl)
  have hr (k : Fin 2048) : ridx_main_v24 (ix2 b (gcol g j)) k = ix2 (gcol g j) k :=
    funext fun a => Fin.ext (by match a with | ⟨0, _⟩ => rfl | ⟨1, _⟩ => rfl)
  have hl' (k : Fin 2048) : lidx_main_v28 (ix2 b (gcol g j)) k = ix2 b k :=
    funext fun a => Fin.ext (by match a with | ⟨0, _⟩ => rfl | ⟨1, _⟩ => rfl)
  have hr' (k : Fin 2048) : ridx_main_v28 (ix2 b (gcol g j)) k = ix2 (gcol g j) k :=
    funext fun a => Fin.ext (by match a with | ⟨0, _⟩ => rfl | ⟨1, _⟩ => rfl)
  have hb : idx_main_v25 (idx_main_v26 (ix2 b (gcol g j))) = ix1 (gcol g j) :=
    funext fun a => Fin.ext (by match a with | ⟨0, _⟩ => rfl)
  have hb' : idx_main_v30 (idx_main_v31 (ix2 b (gcol g j))) = ix1 (gcol g j) :=
    funext fun a => Fin.ext (by match a with | ⟨0, _⟩ => rfl)
  simp only [
    val_main_v32_apply, val_main_v31_apply, val_main_v30_apply, val_main_v29_apply, val_main_v28_apply,
    val_main_v27_apply, val_main_v26_apply, val_main_v25_apply, val_main_v24_apply, xq_eq, wxq_eq, whq_eq,
    Ideal.addf_def, hl, hr, hl', hr', hb, hb']
  unfold preOf xqOf w3Of b2Of
  exact congrArg (· + x6 (ix1 (gcol g j))) (add_right_comm _ _ _)

open Cert.Spec in
/-- Gate 0: columns [0, 2048) of the pre-activation, that is column 0 * 2048 + j at column j of the
    slice, through the logistic function (spelled 1 / (1 + exp (-v))) and the quantiser. -/
theorem gate0_eq (x0 x1 : T2) (x3 : TW) (x4 : TB) (x5 : TW) (x6 : TB) (b : Fin 1024) (j : Fin 2048) :
    val_main_v50 (F := Ideal) x0 x1 x3 x4 x5 x6 (ix2 b j)
      = gatesOfArgs x0 x1 x3 x4 x5 x6 (ix3 (0 : Fin 4) b j) := by
  have hi : idx_main_v33 (ix2 b j) = ix2 b (gcol (0 : Fin 4) j) :=
    funext fun a => Fin.ext (by
      match a with
      | ⟨0, _⟩ => rfl
      | ⟨1, _⟩ => show j.val = 0 * 2048 + j.val; omega)
  simp only [
    val_main_v50_apply, val_main_v49_apply, val_main_cst_16_apply, val_main_v48_apply, val_main_v47_apply,
    val_main_v45_apply, val_main_call6_v2_apply, val_main_v44_apply, val_main_v43_apply, val_main_cst_13_apply,
    val_main_v42_apply, val_main_v40_apply, val_main_v38_apply, val_main_v37_apply, val_main_v39_apply,
    val_main_cst_11_apply, val_main_v41_apply, val_main_cst_12_apply, val_main_call6_v1_apply,
    val_main_call6_v0_apply, val_main_cst_14_apply, val_main_call6_v4_apply, val_main_call6_v3_apply,
    val_main_cst_15_apply, val_main_v46_apply, val_main_v33_apply, hi, pre_eq, Ideal.ofBits_def, Ideal.mulf_def,
    Ideal.maximumf_def, Ideal.minimumf_def, Ideal.hostUnary_roundeven_def, Ideal.subf_def, Ideal.addf_def,
    Ideal.hostDivf_def, Ideal.hostNegf_def, Ideal.negf_def, Ideal.hostUnary_exp_def, Cert.Spec.one_eq,
    Cert.Spec.logistic_spelled, fq_spelled]
  unfold gatesOfArgs gateOf
  exact congrArg fq (if_neg (by decide : ¬ ((0 : Fin 4).val = 2))).symm

open Cert.Spec in
/-- Gate 1: columns [2048, 4096) of the pre-activation, that is column 1 * 2048 + j at column j of the
    slice, through the logistic function (spelled 1 / (1 + exp (-v))) and the quantiser. -/
theorem gate1_eq (x0 x1 : T2) (x3 : TW) (x4 : TB) (x5 : TW) (x6 : TB) (b : Fin 1024) (j : Fin 2048) :
    val_main_v64 (F := Ideal) x0 x1 x3 x4 x5 x6 (ix2 b j)
      = gatesOfArgs x0 x1 x3 x4 x5 x6 (ix3 (1 : Fin 4) b j) := by
  have hi : idx_main_v34 (ix2 b j) = ix2 b (gcol (1 : Fin 4) j) :=
    funext fun a => Fin.ext (by
      match a with
      | ⟨0, _⟩ => rfl
      | ⟨1, _⟩ => show 2048 + j.val = 1 * 2048 + j.val; omega)
  simp only [
    val_main_v64_apply, val_main_v63_apply, val_main_cst_22_apply, val_main_v62_apply, val_main_v61_apply,
    val_main_v59_apply, val_main_call8_v2_apply, val_main_v58_apply, val_main_v57_apply, val_main_cst_19_apply,
    val_main_v56_apply, val_main_v54_apply, val_main_v52_apply, val_main_v51_apply, val_main_v53_apply,
    val_main_cst_17_apply, val_main_v55_apply, val_main_cst_18_apply, val_main_call8_v1_apply,
    val_main_call8_v0_apply, val_main_cst_20_apply, val_main_call8_v4_apply, val_main_call8_v3_apply,
    val_main_cst_21_apply, val_main_v60_apply, val_main_v34_apply, hi, pre_eq, Ideal.ofBits_def, Ideal.mulf_def,
    Ideal.maximumf_def, Ideal.minimumf_def, Ideal.hostUnary_roundeven_def, Ideal.subf_def, Ideal.addf_def,
    Ideal.hostDivf_def, Ideal.hostNegf_def, Ideal.negf_def, Ideal.hostUnary_exp_def, Cert.Spec.one_eq,
    Cert.Spec.logistic_spelled, fq_spelled]
  unfold gatesOfArgs gateOf
  exact congrArg fq (if_neg (by decide : ¬ ((1 : Fin 4).val = 2))).symm

open Cert.Spec in
/-- Gate 2: columns [4096, 6144) of the pre-activation, that is column 2 * 2048 + j at column j of the
    slice, through the hyperbolic tangent and the quantiser. -/
theorem gate2_eq (x0 x1 : T2) (x3 : TW) (x4 : TB) (x5 : TW) (x6 : TB) (b : Fin 1024) (j : Fin 2048) :
    val_main_v73 (F := Ideal) x0 x1 x3 x4 x5 x6 (ix2 b j)
      = gatesOfArgs x0 x1 x3 x4 x5 x6 (ix3 (2 : Fin 4) b j) := by
  have hi : idx_main_v35 (ix2 b j) = ix2 b (gcol (2 : Fin 4) j) :=
    funext fun a => Fin.ext (by
      match a with
      | ⟨0, _⟩ => rfl
      | ⟨1, _⟩ => show 4096 + j.val = 2 * 2048 + j.val; omega)
  simp only [
    val_main_v73_apply, val_main_v72_apply, val_main_cst_26_apply, val_main_v71_apply, val_main_v70_apply,
    val_main_v68_apply, val_main_call10_v2_apply, val_main_v67_apply, val_main_v66_apply, val_main_cst_23_apply,
    val_main_v65_apply, val_main_call10_v1_apply, val_main_call10_v0_apply, val_main_cst_24_apply,
    val_main_call10_v4_apply, val_main_call10_v3_apply, val_main_cst_25_apply, val_main_v69_apply,
    val_main_v35_apply, hi, pre_eq, Ideal.ofBits_def, Ideal.mulf_def, Ideal.maximumf_def, Ideal.minimumf_def,
    Ideal.hostUnary_roundeven_def, Ideal.subf_def, Ideal.addf_def, Ideal.hostDivf_def, Ideal.hostUnary_tanh_def,
    fq_spelled]
  unfold gatesOfArgs gateOf
  exact congrArg fq (if_pos (by decide : ((2 : Fin 4).val = 2))).symm

open Cert.Spec in
/-- Gate 3: columns [6144, 8192) of the pre-activation, that is column 3 * 2048 + j at column j of the
    slice, through the logistic function (spelled 1 / (1 + exp (-v))) and the quantiser. -/
theorem gate3_eq (x0 x1 : T2) (x3 : TW) (x4 : TB) (x5 : TW) (x6 : TB) (b : Fin 1024) (j : Fin 2048) :
    val_main_v87 (F := Ideal) x0 x1 x3 x4 x5 x6 (ix2 b j)
      = gatesOfArgs x0 x1 x3 x4 x5 x6 (ix3 (3 : Fin 4) b j) := by
  have hi : idx_main_v36 (ix2 b j) = ix2 b (gcol (3 : Fin 4) j) :=
    funext fun a => Fin.ext (by
      match a with
      | ⟨0, _⟩ => rfl
      | ⟨1, _⟩ => show 6144 + j.val = 3 * 2048 + j.val; omega)
  simp only [
    val_main_v87_apply, val_main_v86_apply, val_main_cst_32_apply, val_main_v85_apply, val_main_v84_apply,
    val_main_v82_apply, val_main_call12_v2_apply, val_main_v81_apply, val_main_v80_apply, val_main_cst_29_apply,
    val_main_v79_apply, val_main_v77_apply, val_main_v75_apply, val_main_v74_apply, val_main_v76_apply,
    val_main_cst_27_apply, val_main_v78_apply, val_main_cst_28_apply, val_main_call12_v1_apply,
    val_main_call12_v0_apply, val_main_cst_30_apply, val_main_call12_v4_apply, val_main_call12_v3_apply,
    val_main_cst_31_apply, val_main_v83_apply, val_main_v36_apply, hi, pre_eq, Ideal.ofBits_def, Ideal.mulf_def,
    Ideal.maximumf_def, Ideal.minimumf_def, Ideal.hostUnary_roundeven_def, Ideal.subf_def, Ideal.addf_def,
    Ideal.hostDivf_def, Ideal.hostNegf_def, Ideal.negf_def, Ideal.hostUnary_exp_def, Cert.Spec.one_eq,
    Cert.Spec.logistic_spelled, fq_spelled]
  unfold gatesOfArgs gateOf
  exact congrArg fq (if_neg (by decide : ¬ ((3 : Fin 4).val = 2))).symm

open Cert.Spec in
/-- The reference's first result at (b, j): o * fq (tanh (f * c + i * g)) over the four quantised gates and the
    cell state at (b, j). -/
theorem hStage_eq (x0 x1 x2 : T2) (x3 : TW) (x4 : TB) (x5 : TW) (x6 : TB) :
    val_main_v100 (F := Ideal) x0 x1 x2 x3 x4 x5 x6 = hNew x0 x1 x2 x3 x4 x5 x6 := by
  funext i
  obtain ⟨b, j, rfl⟩ : ∃ (b : Fin 1024) (j : Fin 2048), i = ix2 b j := ⟨i 0, i 1, eq_ix2 i⟩
  simp only [
    val_main_v100_apply, val_main_v99_apply, val_main_v98_apply, val_main_cst_36_apply, val_main_v97_apply,
    val_main_v96_apply, val_main_v94_apply, val_main_call14_v2_apply, val_main_v93_apply, val_main_v92_apply,
    val_main_cst_33_apply, val_main_v91_apply, val_main_v90_apply, val_main_v89_apply, val_main_v88_apply,
    val_main_call14_v1_apply, val_main_call14_v0_apply, val_main_cst_34_apply, val_main_call14_v4_apply,
    val_main_call14_v3_apply, val_main_cst_35_apply, val_main_v95_apply, gate0_eq, gate1_eq, gate2_eq, gate3_eq,
    Ideal.ofBits_def, Ideal.mulf_def, Ideal.maximumf_def, Ideal.minimumf_def, Ideal.hostUnary_roundeven_def,
    Ideal.subf_def, Ideal.addf_def, Ideal.hostDivf_def, Ideal.hostUnary_tanh_def, fq_spelled]
  rfl

open Cert.Spec in
/-- The reference's second result at (b, j): fq (f * c + i * g). -/
theorem cStage_eq (x0 x1 x2 : T2) (x3 : TW) (x4 : TB) (x5 : TW) (x6 : TB) :
    val_main_v108 (F := Ideal) x0 x1 x2 x3 x4 x5 x6 = cOut x0 x1 x2 x3 x4 x5 x6 := by
  funext i
  obtain ⟨b, j, rfl⟩ : ∃ (b : Fin 1024) (j : Fin 2048), i = ix2 b j := ⟨i 0, i 1, eq_ix2 i⟩
  simp only [
    val_main_v108_apply, val_main_v107_apply, val_main_cst_40_apply, val_main_v106_apply, val_main_v105_apply,
    val_main_v103_apply, val_main_call16_v2_apply, val_main_v102_apply, val_main_v101_apply, val_main_cst_37_apply,
    val_main_v90_apply, val_main_v89_apply, val_main_v88_apply, val_main_call16_v1_apply, val_main_call16_v0_apply,
    val_main_cst_38_apply, val_main_call16_v4_apply, val_main_call16_v3_apply, val_main_cst_39_apply,
    val_main_v104_apply, gate0_eq, gate1_eq, gate2_eq, Ideal.ofBits_def, Ideal.mulf_def, Ideal.maximumf_def,
    Ideal.minimumf_def, Ideal.hostUnary_roundeven_def, Ideal.subf_def, Ideal.addf_def, Ideal.hostDivf_def,
    fq_spelled]
  rfl

/-- The reference's first result is the specification's new hidden state of the seven argument arrays. -/
theorem out0_eq (m : (ℓ : Loc nD τ sig) → Buf (Elt Ideal) ℓ) (c : Dev nD) :
    Cert.ReferenceIdeal.Value.res_out0 (F := Ideal) m c
      = Cert.Spec.hNew (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v100_eq (F := Ideal) m c).trans (hStage_eq _ _ _ _ _ _ _)

/-- The reference's second result is the specification's quantised new cell state of the seven argument arrays. -/
theorem out1_eq (m : (ℓ : Loc nD τ sig) → Buf (Elt Ideal) ℓ) (c : Dev nD) :
    Cert.ReferenceIdeal.Value.res_out1 (F := Ideal) m c
      = Cert.Spec.cOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v108_eq (F := Ideal) m c).trans (cStage_eq _ _ _ _ _ _ _)

end Cert.RefSpec

end
-- ==== Proof.lean ====
/-
  The certificate of the quantised LSTM cell: a Pallas kernel of three launches against its jnp reference.

  Both programs compute, from the input x, the hidden state hx, the cell state cx, two weight matrices and two bias
  vectors, the new hidden state and the quantised new cell state of a long short-term memory cell whose input,
  weights and gate activations pass through an 8-bit fake quantiser (scale by 127, clip to [-127, 127], round to
  nearest even, scale back by 1/127).  The kernel quantises x in a first launch, forms the four quantised gates tile
  by tile in a second (two matrix products into zero accumulators, the two biases, the logistic function or, for the
  cell gate, the hyperbolic tangent), and combines the gates with the cell state in a third.

  The frames: each launch's pipeline obligation is proved per grid point from the body's run, the launches and the
  reshapes between them are composed along the program, and the run leaves every buffer at a known fold of the launch
  memory; read at the arguments the fold is the launch memory.  The reference's frame is its run with the results
  dropped.

  Equivalence on the extended reals: read at the two results the fold is the specification's new hidden state and
  new cell state of the arguments (the launches' output arrays as whole-array functions, composed); the reference's
  run ends at the same two functions: its quantiser q + (round q - q), divided by 127, is the specification's because
  the clipped value q is a real number, its sigmoid 1 / (1 + exp (-v)) is the logistic function, and it adds the
  biases and the products in another order, which on the extended reals is the same sum.

  The idealisation names the kernel's folded step constant 1/127; every ledger entry is that one statement.
-/
import proofs.«415429_j49383533969518_3_alg».proof.Defs
import proofs.«415429_j49383533969518_3_alg».proof.Proof.Gen.Kernel
import proofs.«415429_j49383533969518_3_alg».proof.Proof.Gen.KernelIdeal
import proofs.«415429_j49383533969518_3_alg».proof.Proof.Gen.ReferenceIdeal
import proofs.«415429_j49383533969518_3_alg».proof.Proof.Gen.Pre_finite_inputs
import proofs.«415429_j49383533969518_3_alg».proof.Proof.Kernel.Run
import proofs.«415429_j49383533969518_3_alg».proof.Proof.KernelIdeal.Run
import proofs.«415429_j49383533969518_3_alg».proof.Proof.KernelIdeal.Compose
import proofs.«415429_j49383533969518_3_alg».proof.Proof.RefRead
import proofs.«415429_j49383533969518_3_alg».proof.Proof.RefSpec
import Idealize.ShloMosaic.Adequacy
import Idealize.ShloMosaic.Init

noncomputable section

namespace Cert.Proof

open Idealize.ShloMosaic Idealize.SL.Sem

variable [Cert.Kernel.Facts] [Cert.KernelIdeal.Facts] [Cert.ReferenceIdeal.Facts] [Cert.Pre_finite_inputs.Facts]

/-- The word-level kernel runs and leaves its arguments as launched: the run's fold read at the arguments. -/
theorem frame_kernel : Cert.frame_Kernel := fun m ρ _ =>
  (θ_run Cert.Kernel.defs _ _).mono (fun r h c =>
    ⟨(h c _ (Cert.Kernel.Stages.mem_uc Cert.Kernel.main_arg0 (by decide))).trans (Cert.Kernel.Stages.W4_main_arg0 m c),
     (h c _ (Cert.Kernel.Stages.mem_uc Cert.Kernel.main_arg1 (by decide))).trans (Cert.Kernel.Stages.W4_main_arg1 m c),
     (h c _ (Cert.Kernel.Stages.mem_uc Cert.Kernel.main_arg2 (by decide))).trans (Cert.Kernel.Stages.W4_main_arg2 m c),
     (h c _ (Cert.Kernel.Stages.mem_uc Cert.Kernel.main_arg3 (by decide))).trans (Cert.Kernel.Stages.W4_main_arg3 m c),
     (h c _ (Cert.Kernel.Stages.mem_uc Cert.Kernel.main_arg4 (by decide))).trans (Cert.Kernel.Stages.W4_main_arg4 m c),
     (h c _ (Cert.Kernel.Stages.mem_uc Cert.Kernel.main_arg5 (by decide))).trans (Cert.Kernel.Stages.W4_main_arg5 m c),
     (h c _ (Cert.Kernel.Stages.mem_uc Cert.Kernel.main_arg6 (by decide))).trans (Cert.Kernel.Stages.W4_main_arg6 m c)⟩)
    (Cert.Kernel.Stages.run_main (F := Bits) m ρ)

/-- The idealised kernel likewise. -/
theorem frame_kernelIdeal : Cert.frame_KernelIdeal := fun m ρ _ =>
  (θ_run Cert.KernelIdeal.defs _ _).mono (fun r h c =>
    ⟨(h c _ (Cert.KernelIdeal.Stages.mem_uc Cert.KernelIdeal.main_arg0 (by decide))).trans (Cert.KernelIdeal.Stages.W4_main_arg0 m c),
     (h c _ (Cert.KernelIdeal.Stages.mem_uc Cert.KernelIdeal.main_arg1 (by decide))).trans (Cert.KernelIdeal.Stages.W4_main_arg1 m c),
     (h c _ (Cert.KernelIdeal.Stages.mem_uc Cert.KernelIdeal.main_arg2 (by decide))).trans (Cert.KernelIdeal.Stages.W4_main_arg2 m c),
     (h c _ (Cert.KernelIdeal.Stages.mem_uc Cert.KernelIdeal.main_arg3 (by decide))).trans (Cert.KernelIdeal.Stages.W4_main_arg3 m c),
     (h c _ (Cert.KernelIdeal.Stages.mem_uc Cert.KernelIdeal.main_arg4 (by decide))).trans (Cert.KernelIdeal.Stages.W4_main_arg4 m c),
     (h c _ (Cert.KernelIdeal.Stages.mem_uc Cert.KernelIdeal.main_arg5 (by decide))).trans (Cert.KernelIdeal.Stages.W4_main_arg5 m c),
     (h c _ (Cert.KernelIdeal.Stages.mem_uc Cert.KernelIdeal.main_arg6 (by decide))).trans (Cert.KernelIdeal.Stages.W4_main_arg6 m c)⟩)
    (Cert.KernelIdeal.Stages.run_main (F := Ideal) m ρ)

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ledger's one statement: the certificate's table gives the step constant's name the value 1/127, and the
    printed constant is that value on the extended reals. -/
theorem named_step : IdealRules.named_const.Statement Cert.KernelIdeal.κ "inv_127" .f32 0x3C010204#32 ((1 / 127 : ℝ) : EReal) :=
  IdealRules.named_const.statement Cert.KernelIdeal.κ "inv_127" .f32 0x3C010204#32 ((1 / 127 : ℝ) : EReal) rfl

/-- Every one of the seven ledger entries is that statement. -/
theorem preserves : Cert.preserves_Kernel_KernelIdeal :=
  ⟨named_step, named_step, named_step, named_step, named_step, named_step, named_step⟩

/-- On the extended reals both programs end with the specification's new hidden state and new cell state of the
    arguments, and leave the arguments as launched. -/
theorem algebraic : Cert.algebraic_KernelIdeal_ReferenceIdeal := by
  intro m ρ m' ρ' _ hagree
  refine ⟨fun c => Cert.Spec.hNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.cOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Stages.mem_uc Cert.KernelIdeal.main_v6_0 (by decide))).trans (Cert.KernelIdeal.Stages.W4_h m c),
       (h c _ (Cert.KernelIdeal.Stages.mem_uc Cert.KernelIdeal.main_v6_1 (by decide))).trans (Cert.KernelIdeal.Stages.W4_c m c),
       (h c _ (Cert.KernelIdeal.Stages.mem_uc Cert.KernelIdeal.main_arg0 (by decide))).trans (Cert.KernelIdeal.Stages.W4_main_arg0 m c),
       (h c _ (Cert.KernelIdeal.Stages.mem_uc Cert.KernelIdeal.main_arg1 (by decide))).trans (Cert.KernelIdeal.Stages.W4_main_arg1 m c),
       (h c _ (Cert.KernelIdeal.Stages.mem_uc Cert.KernelIdeal.main_arg2 (by decide))).trans (Cert.KernelIdeal.Stages.W4_main_arg2 m c),
       (h c _ (Cert.KernelIdeal.Stages.mem_uc Cert.KernelIdeal.main_arg3 (by decide))).trans (Cert.KernelIdeal.Stages.W4_main_arg3 m c),
       (h c _ (Cert.KernelIdeal.Stages.mem_uc Cert.KernelIdeal.main_arg4 (by decide))).trans (Cert.KernelIdeal.Stages.W4_main_arg4 m c),
       (h c _ (Cert.KernelIdeal.Stages.mem_uc Cert.KernelIdeal.main_arg5 (by decide))).trans (Cert.KernelIdeal.Stages.W4_main_arg5 m c),
       (h c _ (Cert.KernelIdeal.Stages.mem_uc Cert.KernelIdeal.main_arg6 (by decide))).trans (Cert.KernelIdeal.Stages.W4_main_arg6 m c)⟩)
      (Cert.KernelIdeal.Stages.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.RefSpec.out0_eq m' c).trans ?_
      rw [(hagree c).1, (hagree c).2.1, (hagree c).2.2.1, (hagree c).2.2.2.1, (hagree c).2.2.2.2.1, (hagree c).2.2.2.2.2.1, (hagree c).2.2.2.2.2.2]
    · refine (Cert.RefSpec.out1_eq m' c).trans ?_
      rw [(hagree c).1, (hagree c).2.1, (hagree c).2.2.1, (hagree c).2.2.2.1, (hagree c).2.2.2.2.1, (hagree c).2.2.2.2.2.1, (hagree c).2.2.2.2.2.2]

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
